-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S128x64 .f32) (main_arg9 : FVec F S64 .f32) (main_arg10 : FVec F S128x64 .f32) (main_v33 : IVec S_ 1) : IVec S_ 1 :=
  let main_v34 : FVec F S128x64 .f32 := Host.absf main_arg8
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S128x64 .f32 := Host.absf main_arg10
  let main_cst_16 : FVec F S_ .f32 := constant S_ .f32 0x7F800000#32
  let main_v45 : FVec F S128x64 .f32 := broadcastInDim S128x64 ![] bcast_S_S128x64 main_cst_16
  let main_v46 : IVec S128x64 1 := cmpf .olt main_v44 main_v45
  let main_c_17 : IVec S_ 1 := constantI S_ 1 1#1
  let main_v47 : IVec S_ 1 := (fun x v => Host.reduce IntOp.andi x v reducesTo_S128x64_S_d0_1 h_S_) main_v46 main_c_17
  let main_v48 : IVec S_ 1 := andi main_v43 main_v47
  main_v48

def fn_part1 {F : FTy → Type} [FloatOps F] (main_arg5 : FVec F S128x128 .f32) (main_arg6 : FVec F S128 .f32) (main_arg7 : FVec F S128x128 .f32) (main_arg8 : FVec F S128x64 .f32) (main_arg9 : FVec F S64 .f32) (main_arg10 : FVec F S128x64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) (main_arg8 : FVec F S128x64 .f32) (main_arg9 : FVec F S64 .f32) (main_arg10 : FVec F S128x64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S5000x128 : Shape := ⟨2, ![5000, 128]⟩
abbrev S1x128 : Shape := ⟨2, ![1, 128]⟩
abbrev S100000x64 : Shape := ⟨2, ![100000, 64]⟩
abbrev S5000x64 : Shape := ⟨2, ![5000, 64]⟩
abbrev S1x64 : Shape := ⟨2, ![1, 64]⟩

abbrev nBuf : Space → Nat
  | .hbm => 93
  | .vmem => 27
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x64, .f32⟩
  | .hbm, ⟨9, _⟩ => ⟨S64, .f32⟩
  | .hbm, ⟨10, _⟩ => ⟨S128x64, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .i32⟩
  | .hbm, ⟨16, _⟩ => ⟨S1600000, .i32⟩
  | .hbm, ⟨17, _⟩ => ⟨S1600000, .i1⟩
  | .hbm, ⟨18, _⟩ => ⟨S_, .i32⟩
  | .hbm, ⟨19, _⟩ => ⟨S1600000, .i32⟩
  | .hbm, ⟨20, _⟩ => ⟨S1600000, .i32⟩
  | .hbm, ⟨21, _⟩ => ⟨S1600000, .i32⟩
  | .hbm, ⟨22, _⟩ => ⟨S1600000x1, .i32⟩
  | .hbm, ⟨23, _⟩ => ⟨S1600000x128, .f32⟩
  | .hbm, ⟨24, _⟩ => ⟨S_, .f32⟩
  | .hbm, ⟨25, _⟩ => ⟨S100000x128, .f32⟩
  | .hbm, ⟨26, _⟩ => ⟨S1600000x1, .i32⟩
  | .hbm, ⟨27, _⟩ => ⟨S100000x128, .f32⟩
  | .hbm, ⟨28, _⟩ => ⟨S_, .f32⟩
  | .hbm, ⟨29, _⟩ => ⟨S1600000, .f32⟩
  | .hbm, ⟨30, _⟩ => ⟨S_, .f32⟩
  | .hbm, ⟨31, _⟩ => ⟨S100000, .f32⟩
  | .hbm, ⟨32, _⟩ => ⟨S1600000x1, .i32⟩
  | .hbm, ⟨33, _⟩ => ⟨S100000, .f32⟩
  | .hbm, ⟨34, _⟩ => ⟨S_, .f32⟩
  | .hbm, ⟨35, _⟩ => ⟨S100000, .f32⟩
  | .hbm, ⟨36, _⟩ => ⟨S100000, .f32⟩
  | .hbm, ⟨37, _⟩ => ⟨S100000x1, .f32⟩
  | .hbm, ⟨38, _⟩ => ⟨S100000x128, .f32⟩
  | .hbm, ⟨39, _⟩ => ⟨S100000x128, .f32⟩
  | .hbm, ⟨40, _⟩ => ⟨S100000x128, .f32⟩
  | .hbm, ⟨41, _⟩ => ⟨S_, .i32⟩
  | .hbm, ⟨42, _⟩ => ⟨S1600000, .i32⟩
  | .hbm, ⟨43, _⟩ => ⟨S1600000, .i1⟩
  | .hbm, ⟨44, _⟩ => ⟨S_, .i32⟩
  | .hbm, ⟨45, _⟩ => ⟨S1600000, .i32⟩
  | .hbm, ⟨46, _⟩ => ⟨S1600000, .i32⟩
  | .hbm, ⟨47, _⟩ => ⟨S1600000, .i32⟩
  | .hbm, ⟨48, _⟩ => ⟨S1600000x1, .i32⟩
  | .hbm, ⟨49, _⟩ => ⟨S1600000x128, .f32⟩
  | .hbm, ⟨50, _⟩ => ⟨S_, .f32⟩
  | .hbm, ⟨51, _⟩ => ⟨S100000x128, .f32⟩
  | .hbm, ⟨52, _⟩ => ⟨S1600000x1, .i32⟩
  | .hbm, ⟨53, _⟩ => ⟨S100000x128, .f32⟩
  | .hbm, ⟨54, _⟩ => ⟨S_, .f32⟩
  | .hbm, ⟨55, _⟩ => ⟨S1600000, .f32⟩
  | .hbm, ⟨56, _⟩ => ⟨S_, .f32⟩
  | .hbm, ⟨57, _⟩ => ⟨S100000, .f32⟩
  | .hbm, ⟨58, _⟩ => ⟨S1600000x1, .i32⟩
  | .hbm, ⟨59, _⟩ => ⟨S100000, .f32⟩
  | .hbm, ⟨60, _⟩ => ⟨S_, .f32⟩
  | .hbm, ⟨61, _⟩ => ⟨S100000, .f32⟩
  | .hbm, ⟨62, _⟩ => ⟨S100000, .f32⟩
  | .hbm, ⟨63, _⟩ => ⟨S100000x1, .f32⟩
  | .hbm, ⟨64, _⟩ => ⟨S100000x128, .f32⟩
  | .hbm, ⟨65, _⟩ => ⟨S100000x128, .f32⟩
  | .hbm, ⟨66, _⟩ => ⟨S100000x128, .f32⟩
  | .hbm, ⟨67, _⟩ => ⟨S_, .i32⟩
  | .hbm, ⟨68, _⟩ => ⟨S1600000, .i32⟩
  | .hbm, ⟨69, _⟩ => ⟨S1600000, .i1⟩
  | .hbm, ⟨70, _⟩ => ⟨S_, .i32⟩
  | .hbm, ⟨71, _⟩ => ⟨S1600000, .i32⟩
  | .hbm, ⟨72, _⟩ => ⟨S1600000, .i32⟩
  | .hbm, ⟨73, _⟩ => ⟨S1600000, .i32⟩
  | .hbm, ⟨74, _⟩ => ⟨S1600000x1, .i32⟩
  | .hbm, ⟨75, _⟩ => ⟨S1600000x128, .f32⟩
  | .hbm, ⟨76, _⟩ => ⟨S_, .f32⟩
  | .hbm, ⟨77, _⟩ => ⟨S100000x128, .f32⟩
  | .hbm, ⟨78, _⟩ => ⟨S1600000x1, .i32⟩
  | .hbm, ⟨79, _⟩ => ⟨S100000x128, .f32⟩
  | .hbm, ⟨80, _⟩ => ⟨S_, .f32⟩
  | .hbm, ⟨81, _⟩ => ⟨S1600000, .f32⟩
  | .hbm, ⟨82, _⟩ => ⟨S_, .f32⟩
  | .hbm, ⟨83, _⟩ => ⟨S100000, .f32⟩
  | .hbm, ⟨84, _⟩ => ⟨S1600000x1, .i32⟩
  | .hbm, ⟨85, _⟩ => ⟨S100000, .f32⟩
  | .hbm, ⟨86, _⟩ => ⟨S_, .f32⟩
  | .hbm, ⟨87, _⟩ => ⟨S100000, .f32⟩
  | .hbm, ⟨88, _⟩ => ⟨S100000, .f32⟩
  | .hbm, ⟨89, _⟩ => ⟨S100000x1, .f32⟩
  | .hbm, ⟨90, _⟩ => ⟨S100000x128, .f32⟩
  | .hbm, ⟨91, _⟩ => ⟨S100000x128, .f32⟩
  | .hbm, ⟨92, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128, .f32⟩
  | .local _ .vmem, ⟨6, _⟩ => ⟨S128x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128, .f32⟩
  | .local _ .vmem, ⟨15, _⟩ => ⟨S128x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x64, .f32⟩
  | .local _ .vmem, ⟨23, _⟩ => ⟨S64, .f32⟩
  | .local _ .vmem, ⟨24, _⟩ => ⟨S128x64, .f32⟩
  | .local _ .vmem, ⟨25, _⟩ => ⟨S5000x64, .f32⟩
  | .local _ .vmem, ⟨26, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_4 : Ref sig .tc := ⟨.hbm, 41, rfl⟩
abbrev main_v24 : Ref sig .tc := ⟨.hbm, 42, rfl⟩
abbrev main_v25 : Ref sig .tc := ⟨.hbm, 43, rfl⟩
abbrev main_c_5 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_6 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_7 : Ref sig .tc := ⟨.hbm, 54, rfl⟩
abbrev main_v34 : Ref sig .tc := ⟨.hbm, 55, rfl⟩
abbrev main_cst_8 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_9 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_c_10 : Ref sig .tc := ⟨.hbm, 67, rfl⟩
abbrev main_v44 : Ref sig .tc := ⟨.hbm, 68, rfl⟩
abbrev main_v45 : Ref sig .tc := ⟨.hbm, 69, rfl⟩
abbrev main_c_11 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_cst_12 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_cst_13 : Ref sig .tc := ⟨.hbm, 80, rfl⟩
abbrev main_v54 : Ref sig .tc := ⟨.hbm, 81, rfl⟩
abbrev main_cst_14 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_cst_15 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x64.size a ≤ S128x64.size a
  hwx2_2 : ∀ i : grid2.Coords, EltTy.bits .f32 = 32 ∨ (Rect.block (s := S128x64) S128x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64.size a ≤ S64.size a
  hwx2_3 : ∀ i : grid2.Coords, EltTy.bits .f32 = 32 ∨ (Rect.block (s := S64) S64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x64.size a ≤ S128x64.size a
  hwx2_4 : ∀ i : grid2.Coords, EltTy.bits .f32 = 32 ∨ (Rect.block (s := S128x64) S128x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S100000x64.size a
  hwx2_5 : ∀ i : grid2.Coords, EltTy.bits .f32 = 32 ∨ (Rect.block (s := S100000x64) S5000x64.size (cc2_transform_5 i) (hinb2_5 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v22) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v42) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v43) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v62) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v43) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S128x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg10) S128x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v63) S5000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S100000x64 : Shape := ⟨2, ![100000, 64]⟩
abbrev S1x64 : Shape := ⟨2, ![1, 64]⟩

abbrev nBuf : Space → Nat
  | .hbm => 114
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x64, .f32⟩
  | .hbm, ⟨9, _⟩ => ⟨S64, .f32⟩
  | .hbm, ⟨10, _⟩ => ⟨S128x64, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .i32⟩
  | .hbm, ⟨16, _⟩ => ⟨S1600000, .i32⟩
  | .hbm, ⟨17, _⟩ => ⟨S1600000, .i1⟩
  | .hbm, ⟨18, _⟩ => ⟨S_, .i32⟩
  | .hbm, ⟨19, _⟩ => ⟨S1600000, .i32⟩
  | .hbm, ⟨20, _⟩ => ⟨S1600000, .i32⟩
  | .hbm, ⟨21, _⟩ => ⟨S1600000, .i32⟩
  | .hbm, ⟨22, _⟩ => ⟨S1600000x1, .i32⟩
  | .hbm, ⟨23, _⟩ => ⟨S1600000x128, .f32⟩
  | .hbm, ⟨24, _⟩ => ⟨S_, .f32⟩
  | .hbm, ⟨25, _⟩ => ⟨S100000x128, .f32⟩
  | .hbm, ⟨26, _⟩ => ⟨S1600000x1, .i32⟩
  | .hbm, ⟨27, _⟩ => ⟨S100000x128, .f32⟩
  | .hbm, ⟨28, _⟩ => ⟨S_, .f32⟩
  | .hbm, ⟨29, _⟩ => ⟨S1600000, .f32⟩
  | .hbm, ⟨30, _⟩ => ⟨S_, .f32⟩
  | .hbm, ⟨31, _⟩ => ⟨S100000, .f32⟩
  | .hbm, ⟨32, _⟩ => ⟨S1600000x1, .i32⟩
  | .hbm, ⟨33, _⟩ => ⟨S100000, .f32⟩
  | .hbm, ⟨34, _⟩ => ⟨S_, .f32⟩
  | .hbm, ⟨35, _⟩ => ⟨S100000, .f32⟩
  | .hbm, ⟨36, _⟩ => ⟨S100000, .f32⟩
  | .hbm, ⟨37, _⟩ => ⟨S100000x1, .f32⟩
  | .hbm, ⟨38, _⟩ => ⟨S100000x128, .f32⟩
  | .hbm, ⟨39, _⟩ => ⟨S100000x128, .f32⟩
  | .hbm, ⟨40, _⟩ => ⟨S100000x128, .f32⟩
  | .hbm, ⟨41, _⟩ => ⟨S1x128, .f32⟩
  | .hbm, ⟨42, _⟩ => ⟨S100000x128, .f32⟩
  | .hbm, ⟨43, _⟩ => ⟨S100000x128, .f32⟩
  | .hbm, ⟨44, _⟩ => ⟨S100000x128, .f32⟩
  | .hbm, ⟨45, _⟩ => ⟨S100000x128, .f32⟩
  | .hbm, ⟨46, _⟩ => ⟨S_, .f32⟩
  | .hbm, ⟨47, _⟩ => ⟨S100000x128, .f32⟩
  | .hbm, ⟨48, _⟩ => ⟨S100000x128, .f32⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000x128, .f32⟩
  | .hbm, ⟨58, _⟩ => ⟨S_, .f32⟩
  | .hbm, ⟨59, _⟩ => ⟨S100000x128, .f32⟩
  | .hbm, ⟨60, _⟩ => ⟨S1600000x1, .i32⟩
  | .hbm, ⟨61, _⟩ => ⟨S100000x128, .f32⟩
  | .hbm, ⟨62, _⟩ => ⟨S_, .f32⟩
  | .hbm, ⟨63, _⟩ => ⟨S1600000, .f32⟩
  | .hbm, ⟨64, _⟩ => ⟨S_, .f32⟩
  | .hbm, ⟨65, _⟩ => ⟨S100000, .f32⟩
  | .hbm, ⟨66, _⟩ => ⟨S1600000x1, .i32⟩
  | .hbm, ⟨67, _⟩ => ⟨S100000, .f32⟩
  | .hbm, ⟨68, _⟩ => ⟨S_, .f32⟩
  | .hbm, ⟨69, _⟩ => ⟨S100000, .f32⟩
  | .hbm, ⟨70, _⟩ => ⟨S100000, .f32⟩
  | .hbm, ⟨71, _⟩ => ⟨S100000x1, .f32⟩
  | .hbm, ⟨72, _⟩ => ⟨S100000x128, .f32⟩
  | .hbm, ⟨73, _⟩ => ⟨S100000x128, .f32⟩
  | .hbm, ⟨74, _⟩ => ⟨S100000x128, .f32⟩
  | .hbm, ⟨75, _⟩ => ⟨S1x128, .f32⟩
  | .hbm, ⟨76, _⟩ => ⟨S100000x128, .f32⟩
  | .hbm, ⟨77, _⟩ => ⟨S100000x128, .f32⟩
  | .hbm, ⟨78, _⟩ => ⟨S100000x128, .f32⟩
  | .hbm, ⟨79, _⟩ => ⟨S100000x128, .f32⟩
  | .hbm, ⟨80, _⟩ => ⟨S_, .f32⟩
  | .hbm, ⟨81, _⟩ => ⟨S100000x128, .f32⟩
  | .hbm, ⟨82, _⟩ => ⟨S100000x128, .f32⟩
  | .hbm, ⟨83, _⟩ => ⟨S_, .i32⟩
  | .hbm, ⟨84, _⟩ => ⟨S1600000, .i32⟩
  | .hbm, ⟨85, _⟩ => ⟨S1600000, .i1⟩
  | .hbm, ⟨86, _⟩ => ⟨S_, .i32⟩
  | .hbm, ⟨87, _⟩ => ⟨S1600000, .i32⟩
  | .hbm, ⟨88, _⟩ => ⟨S1600000, .i32⟩
  | .hbm, ⟨89, _⟩ => ⟨S1600000, .i32⟩
  | .hbm, ⟨90, _⟩ => ⟨S1600000x1, .i32⟩
  | .hbm, ⟨91, _⟩ => ⟨S1600000x128, .f32⟩
  | .hbm, ⟨92, _⟩ => ⟨S_, .f32⟩
  | .hbm, ⟨93, _⟩ => ⟨S100000x128, .f32⟩
  | .hbm, ⟨94, _⟩ => ⟨S1600000x1, .i32⟩
  | .hbm, ⟨95, _⟩ => ⟨S100000x128, .f32⟩
  | .hbm, ⟨96, _⟩ => ⟨S_, .f32⟩
  | .hbm, ⟨97, _⟩ => ⟨S1600000, .f32⟩
  | .hbm, ⟨98, _⟩ => ⟨S_, .f32⟩
  | .hbm, ⟨99, _⟩ => ⟨S100000, .f32⟩
  | .hbm, ⟨100, _⟩ => ⟨S1600000x1, .i32⟩
  | .hbm, ⟨101, _⟩ => ⟨S100000, .f32⟩
  | .hbm, ⟨102, _⟩ => ⟨S_, .f32⟩
  | .hbm, ⟨103, _⟩ => ⟨S100000, .f32⟩
  | .hbm, ⟨104, _⟩ => ⟨S100000, .f32⟩
  | .hbm, ⟨105, _⟩ => ⟨S100000x1, .f32⟩
  | .hbm, ⟨106, _⟩ => ⟨S100000x128, .f32⟩
  | .hbm, ⟨107, _⟩ => ⟨S100000x128, .f32⟩
  | .hbm, ⟨108, _⟩ => ⟨S100000x64, .f32⟩
  | .hbm, ⟨109, _⟩ => ⟨S1x64, .f32⟩
  | .hbm, ⟨110, _⟩ => ⟨S100000x64, .f32⟩
  | .hbm, ⟨111, _⟩ => ⟨S100000x64, .f32⟩
  | .hbm, ⟨112, _⟩ => ⟨S100000x64, .f32⟩
  | .hbm, ⟨113, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_call0_cst : Ref sig .tc := ⟨.hbm, 46, rfl⟩
abbrev main_call0_v0 : Ref sig .tc := ⟨.hbm, 47, rfl⟩
abbrev main_v29 : Ref sig .tc := ⟨.hbm, 48, rfl⟩
abbrev main_c_4 : Ref sig .tc := ⟨.hbm, 49, rfl⟩
abbrev main_v30 : Ref sig .tc := ⟨.hbm, 50, rfl⟩
abbrev main_v31 : Ref sig .tc := ⟨.hbm, 51, rfl⟩
abbrev main_c_5 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_6 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_7 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_9 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_call1_cst : Ref sig .tc := ⟨.hbm, 80, rfl⟩
abbrev main_call1_v0 : Ref sig .tc := ⟨.hbm, 81, rfl⟩
abbrev main_v55 : Ref sig .tc := ⟨.hbm, 82, rfl⟩
abbrev main_c_10 : Ref sig .tc := ⟨.hbm, 83, rfl⟩
abbrev main_v56 : Ref sig .tc := ⟨.hbm, 84, rfl⟩
abbrev main_v57 : Ref sig .tc := ⟨.hbm, 85, rfl⟩
abbrev main_c_11 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_cst_12 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_cst_13 : Ref sig .tc := ⟨.hbm, 96, rfl⟩
abbrev main_v66 : Ref sig .tc := ⟨.hbm, 97, rfl⟩
abbrev main_cst_14 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_cst_15 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.LibDense.lean ====
/-
  One dense layer of a multilayer perceptron, read one row at a time over the extended reals.

  A layer maps a row  v  of K numbers to the row  y_c = (Σ_k v_k · W_{k,c}) + b_c  of C numbers (`affine`), optionally
  followed by the rectifier  max(·, 0)  (`relu`). A product of an [R, K] array with a [K, C] array whose dimension
  numbers contract the left operand's axis 1 with the right operand's axis 0 (no batch axes) is, at the entry (r, c),
  the sum over k of  lhs(r, k) · rhs(k, c) : this holds for the matrix unit's product into a zero accumulator and for the
  host's general product alike (`matmul_zero_plain_apply`, `dotGeneral_plain_apply`), because both are the same sum over
  the one-axis contraction index, re-indexed here by its one coordinate (`contr_sum`). So a whole layer as either
  program spells it — the product, the bias row added to every row, the maximum with zero — is `relu (affine W b row)`
  at every entry (`kernel_affine_apply` then `kernel_relu_apply`; `host_affine_apply` then `host_relu_apply`), whatever the number of rows: a layer acts on each row by
  itself.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Dense

open Idealize.ShloMosaic Idealize.ShloMosaic.ValueIdx

/-- The affine map of one row:  y_c = (Σ_k v_k · W_{k,c}) + b_c . -/
def affine {K C : ℕ} (W : FVec Ideal ⟨2, ![K, C]⟩ .f32) (b : FVec Ideal ⟨1, ![C]⟩ .f32) (v : Fin K → EReal) :
    Fin C → EReal :=
  fun c => (∑ k : Fin K, v k * W (ix2 k c)) + b (ix1 c)

/-- The rectifier on a row:  max(y_c, 0) . -/
def relu {C : ℕ} (v : Fin C → EReal) : Fin C → EReal := fun c => max (v c) 0

/-- A coordinate of an index does not depend on how its axis number is written. -/
private theorem idx_val_congr {s : Shape} (j : s.Idx) (p q : Nat) (hp : p < s.rank) (hq : q < s.rank) (h : p = q) :
    (j ⟨p, hp⟩).val = (j ⟨q, hq⟩).val := by subst h; rfl

/-- With no batch axes and the left operand's axis 0 its only free axis, the left index's row is the result's row. -/
private theorem lhsIdx_row {R K C : ℕ} (d : DotDims ⟨2, ![R, K]⟩ ⟨2, ![K, C]⟩ ⟨2, ![R, C]⟩)
    (h3 : d.lhsNonContracting = [0]) (h5 : d.lhsBatch = [])
    (j : (⟨2, ![R, C]⟩ : Shape).Idx) (k : d.contr.Idx) : (d.lhsIdx j k 0).val = (j 0).val := by
  have hb : (0 : Fin 2) ∉ d.lhsBatch := by rw [h5]; exact List.not_mem_nil
  have hn : (0 : Fin 2) ∈ d.lhsNonContracting := by rw [h3]; exact List.mem_singleton.mpr rfl
  unfold DotDims.lhsIdx
  rw [dif_neg hb, dif_pos hn]
  simp only [Fin.val_cast]
  exact idx_val_congr j _ _ _ _ (by simp [h3, h5])

/-- With no batch axes, one free axis on the left and the right operand's axis 1 its only free axis, the right index's
    column is the result's column. -/
private theorem rhsIdx_col {R K C : ℕ} (d : DotDims ⟨2, ![R, K]⟩ ⟨2, ![K, C]⟩ ⟨2, ![R, C]⟩)
    (h3 : d.lhsNonContracting = [0]) (h4 : d.rhsNonContracting = [1]) (h5 : d.lhsBatch = []) (h6 : d.rhsBatch = [])
    (j : (⟨2, ![R, C]⟩ : Shape).Idx) (k : d.contr.Idx) : (d.rhsIdx j k 1).val = (j 1).val := by
  have hb : (1 : Fin 2) ∉ d.rhsBatch := by rw [h6]; exact List.not_mem_nil
  have hn : (1 : Fin 2) ∈ d.rhsNonContracting := by rw [h4]; exact List.mem_singleton.mpr rfl
  unfold DotDims.rhsIdx
  rw [dif_neg hb, dif_pos hn]
  simp only [Fin.val_cast]
  exact idx_val_congr j _ _ _ _ (by simp [h3, h4, h5])

/-- The sum over a one-axis contraction index of a plain [R,K] × [K,C] product, as the sum over k of
    lhs(r, k) · rhs(k, c). -/
theorem contr_sum {R K C : ℕ} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (lhs : (⟨2, ![R, K]⟩ : Shape).Idx → EReal) (rhs : (⟨2, ![K, C]⟩ : Shape).Idx → EReal) (r : Fin R) (c : Fin C) :
    ∑ k : d.contr.Idx, lhs (d.lhsIdx (ix2 r c) k) * rhs (d.rhsIdx (ix2 r c) k)
      = ∑ k : Fin K, lhs (ix2 r k) * rhs (ix2 k c) := by
  -- the contraction index has one axis, of extent K
  have hr : d.contr.rank = 1 := by rw [d.rank_contr, h1]; rfl
  have hs : d.contr.size ⟨0, by omega⟩ = K := by
    have h := d.size_contr 0 (by rw [h1]; exact Nat.one_pos)
    rw [h]
    simp [h1]
  -- re-index the sum by that axis's one coordinate
  rw [← Equiv.sum_comp (contrEquiv1 d K hr hs).symm]
  refine Finset.sum_congr rfl fun k _ => ?_
  have hk : (((contrEquiv1 d K hr hs).symm k) ⟨0, by omega⟩ : ℕ) = k.val := contrEquiv1_symm_val d K hr hs k
  -- the left operand is read at (r, k): its row from the result, its column from the contraction
  have el : d.lhsIdx (ix2 r c) ((contrEquiv1 d K hr hs).symm k) = ix2 r k := by
    funext a
    match a with
    | ⟨0, _⟩ => exact Fin.ext (lhsIdx_row d h3 h5 (ix2 r c) _)
    | ⟨1, _⟩ => exact Fin.ext ((d.lhsIdx_val_of_single h1 (ix2 r c) _).trans hk)
  -- the right operand is read at (k, c): its row from the contraction, its column from the result
  have er : d.rhsIdx (ix2 r c) ((contrEquiv1 d K hr hs).symm k) = ix2 k c := by
    funext a
    match a with
    | ⟨0, _⟩ => exact Fin.ext ((d.rhsIdx_val_of_single h2 (ix2 r c) _).trans hk)
    | ⟨1, _⟩ => exact Fin.ext (rhsIdx_col d h3 h4 h5 h6 (ix2 r c) _)
  rw [el, er]

/-- The matrix unit's product into a zero accumulator, at (r, c). -/
theorem matmul_zero_plain_apply {R K C : ℕ} {φ₁ φ₂ : FTy} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (lhs : FVec Ideal ⟨2, ![R, K]⟩ φ₁) (rhs : FVec Ideal ⟨2, ![K, C]⟩ φ₂)
    (r : Fin R) (c : Fin C) :
    matmul d prec lhs rhs (constant ⟨2, ![R, C]⟩ .f32 0x00000000#32) (ix2 r c)
      = ∑ k : Fin K, lhs (ix2 r k) * rhs (ix2 k c) := by
  -- the product into zeros is the sum over the contraction index, which is the sum over k
  show FloatOps.matmul d prec lhs rhs (constant ⟨2, ![R, C]⟩ .f32 0x00000000#32) (ix2 r c) = _
  rw [Ideal.matmul_constant_zero_apply]
  exact contr_sum d h1 h2 h3 h4 h5 h6 lhs rhs r c

/-- The host's general product, at (r, c). -/
theorem dotGeneral_plain_apply {R K C : ℕ} {φ₁ φ₂ : FTy} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (lhs : FVec Ideal ⟨2, ![R, K]⟩ φ₁) (rhs : FVec Ideal ⟨2, ![K, C]⟩ φ₂)
    (r : Fin R) (c : Fin C) :
    Host.dotGeneral d prec lhs rhs (ix2 r c) = ∑ k : Fin K, lhs (ix2 r k) * rhs (ix2 k c) := by
  -- the general product is the same sum over the contraction index
  simp only [Host.dotGeneral]
  rw [Ideal.dotGeneral_apply]
  exact contr_sum d h1 h2 h3 h4 h5 h6 lhs rhs r c

/-- A [C] row viewed as a [1, C] array and stretched over R rows reads, at (r, c), the row's entry c. -/
private theorem bias_keepdims_apply {R C : ℕ} {α : Type}
    (hsc : (⟨1, ![C]⟩ : Shape).ShapeCasts ⟨2, ![1, C]⟩) (hbc : (⟨2, ![1, C]⟩ : Shape).Broadcasts ⟨2, ![R, C]⟩)
    (b : (⟨1, ![C]⟩ : Shape).Idx → α) (r : Fin R) (c : Fin C) :
    broadcastTo ⟨2, ![R, C]⟩ (shapeCast ⟨2, ![1, C]⟩ b hsc) hbc (ix2 r c) = b (ix1 c) := by
  -- the stretch reads the [1, C] array at (0, c); when C = 1 the column c is itself 0
  refine (broadcastTo_apply _ hbc (ix2 r c) (ix2 (0 : Fin 1) c) fun a => ?_).trans ?_
  · match a with
    | ⟨0, _⟩ => exact (if_pos rfl).symm
    | ⟨1, _⟩ =>
      show c.val = if C = 1 then 0 else c.val
      split
      · have := c.isLt; omega
      · rfl
  -- the added unit axis reads the row at its trailing coordinate
  · refine (shapeCast_addUnit_apply ![C] b hsc (ix2 (0 : Fin 1) c)).trans ?_
    exact congrArg b (funext fun a => match a with | ⟨0, _⟩ => rfl)

/-- A layer before its rectifier as the kernel spells it — both operands narrowed to bf16 (the identity on the
    extended reals), the product into zeros, the bias as a [1, C] row stretched over the R rows and added — at (r, c). -/
theorem kernel_affine_apply {R K C : ℕ} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (hlt : FTy.bits .bf16 < FTy.bits .f32)
    (hsc : (⟨1, ![C]⟩ : Shape).ShapeCasts ⟨2, ![1, C]⟩) (hbc : (⟨2, ![1, C]⟩ : Shape).Broadcasts ⟨2, ![R, C]⟩)
    (X : FVec Ideal ⟨2, ![R, K]⟩ .f32) (W : FVec Ideal ⟨2, ![K, C]⟩ .f32) (b : FVec Ideal ⟨1, ![C]⟩ .f32)
    (r : Fin R) (c : Fin C) :
    addf (matmul d none (truncf .bf16 X hlt) (truncf .bf16 W hlt) (constant ⟨2, ![R, C]⟩ .f32 0x00000000#32))
        (broadcastTo ⟨2, ![R, C]⟩ (shapeCast ⟨2, ![1, C]⟩ b hsc) hbc) (ix2 r c)
      = affine W b (fun k => X (ix2 r k)) c := by
  -- the sum at (r, c) plus the bias entry c; narrowing to bf16 is the identity on the extended reals
  rw [addf_apply, matmul_zero_plain_apply d h1 h2 h3 h4 h5 h6, bias_keepdims_apply hsc hbc b r c]
  rfl

/-- The kernel's rectifier — the maximum with a splat of the zero word — at an index. -/
theorem kernel_relu_apply {s : Shape} (v : FVec Ideal s .f32) (i : s.Idx) :
    maximumf v (broadcast s (Scalar.ofBits (F := Ideal) .f32 0x00000000#32)) i = max (v i) 0 := by
  -- the splat reads the zero word everywhere, and the zero word is the number 0
  rw [maximumf_apply, broadcast_apply]
  show max (v i) (Ideal.ofBits .f32 0x00000000#32) = _
  rw [Ideal.ofBits_zero_f32]

/-- A [C] row laid out as a [1, C] array on its axis 1 and then over R rows on both axes reads, at (r, c), the row's
    entry c. -/
private theorem bias_inDim_apply {R C : ℕ} {α : Type}
    (hb1 : (⟨1, ![C]⟩ : Shape).BroadcastsInDim ⟨2, ![1, C]⟩ (![1] : Fin 1 → Fin 2))
    (hb2 : (⟨2, ![1, C]⟩ : Shape).BroadcastsInDim ⟨2, ![R, C]⟩ (![0, 1] : Fin 2 → Fin 2))
    (b : (⟨1, ![C]⟩ : Shape).Idx → α) (r : Fin R) (c : Fin C) :
    broadcastInDim ⟨2, ![R, C]⟩ ![0, 1] hb2 (broadcastInDim ⟨2, ![1, C]⟩ ![1] hb1 b) (ix2 r c) = b (ix1 c) := by
  -- the outer layout reads the [1, C] array at (0, c); when C = 1 the column c is itself 0
  refine (broadcastInDim_apply ![0, 1] hb2 _ (ix2 r c) (ix2 (0 : Fin 1) c) fun a => ?_).trans ?_
  · match a with
    | ⟨0, _⟩ => exact (if_pos rfl).symm
    | ⟨1, _⟩ =>
      show c.val = if C = 1 then 0 else c.val
      split
      · have := c.isLt; omega
      · rfl
  -- the inner layout reads the row at the [1, C] array's coordinate on axis 1
  · refine broadcastInDim_apply ![1] hb1 b (ix2 (0 : Fin 1) c) (ix1 c) fun a => ?_
    match a with
    | ⟨0, _⟩ =>
      show c.val = if C = 1 then 0 else c.val
      split
      · have := c.isLt; omega
      · rfl

/-- A layer before its rectifier as the host spells it — the general product, the bias laid out as a [1, C] row and
    then over the R rows, added — at (r, c). -/
theorem host_affine_apply {R K C : ℕ} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (hb1 : (⟨1, ![C]⟩ : Shape).BroadcastsInDim ⟨2, ![1, C]⟩ (![1] : Fin 1 → Fin 2))
    (hb2 : (⟨2, ![1, C]⟩ : Shape).BroadcastsInDim ⟨2, ![R, C]⟩ (![0, 1] : Fin 2 → Fin 2))
    (X : FVec Ideal ⟨2, ![R, K]⟩ .f32) (W : FVec Ideal ⟨2, ![K, C]⟩ .f32) (b : FVec Ideal ⟨1, ![C]⟩ .f32)
    (r : Fin R) (c : Fin C) :
    addf (Host.dotGeneral d none X W)
        (broadcastInDim ⟨2, ![R, C]⟩ ![0, 1] hb2 (broadcastInDim ⟨2, ![1, C]⟩ ![1] hb1 b)) (ix2 r c)
      = affine W b (fun k => X (ix2 r k)) c := by
  -- the sum at (r, c) plus the bias entry c
  rw [addf_apply, dotGeneral_plain_apply d h1 h2 h3 h4 h5 h6, bias_inDim_apply hb1 hb2 b r c]
  rfl

/-- The host's rectifier — the maximum with the zero scalar laid out over the array — at an index. -/
theorem host_relu_apply {s : Shape} (hb0 : (⟨0, ![]⟩ : Shape).BroadcastsInDim s (![] : Fin 0 → Fin s.rank))
    (v : FVec Ideal s .f32) (i : s.Idx) :
    maximumf v (broadcastInDim s ![] hb0 (constant (F := Ideal) ⟨0, ![]⟩ .f32 0x00000000#32)) i = max (v i) 0 := by
  -- the scalar laid out over the array reads its one entry everywhere: the zero word, which is the number 0
  rw [maximumf_apply]
  have e : broadcastInDim s ![] hb0 (constant (F := Ideal) ⟨0, ![]⟩ .f32 0x00000000#32) i
      = constant (F := Ideal) ⟨0, ![]⟩ .f32 0x00000000#32 ix0 :=
    broadcastInDim_apply ![] hb0 _ i ix0 fun a => a.elim0
  rw [e, constant_apply, Ideal.ofBits_zero_f32]

end Cert.Dense

end
-- ==== Proof.LibBiasRow.lean ====
/-
  A bias row added to every row of a matrix, read at an entry.

  A row  b  of C numbers is added to each of the R rows of an [R, C] array by first giving it a leading axis of
  extent 1 and then repeating that one row R times. A vector program spells the two steps as a shape cast
  [C] → [1, C] followed by a broadcast [1, C] → [R, C]; a host program spells them as two layouts in dimensions,
  [C] → [1, C] on axis 1 and [1, C] → [R, C] on axes (0, 1). Either way the entry (r, c) of the result is  b_c :
  the repetition reads the single row at (0, c) (`stretch_row_apply`, `layout_rows_apply`), and the single row at
  (0, c) is the entry c of  b  (`cast_row_apply`, `layout_row_apply`). The two whole spellings at an entry are
  `cast_stretch_apply` and `layout_layout_apply`. All of it is generic in R, C and the element type; when C = 1
  the column c is itself 0, which is the only case distinction.
-/
import Idealize.ShloMosaic.Lib.ValueIdx
import Idealize.ShloMosaic.Lib.ValueLayout
import Idealize.ShloMosaic.Lib.Pipeline.Value

noncomputable section

namespace Cert.BiasRow

open Idealize.ShloMosaic Idealize.ShloMosaic.ValueIdx

variable {R C : ℕ} {α : Type}

/-- A column number below C is 0 when C = 1, and is itself otherwise. -/
theorem col_val (c : Fin C) : c.val = if C = 1 then 0 else c.val := by
  split
  · have := c.isLt; omega
  · rfl

/-- One row repeated R times by a vector broadcast reads, at (r, c), the row's entry (0, c). -/
theorem stretch_row_apply (hbc : (⟨2, ![1, C]⟩ : Shape).Broadcasts ⟨2, ![R, C]⟩)
    (v : (⟨2, ![1, C]⟩ : Shape).Idx → α) (r : Fin R) (c : Fin C) :
    broadcastTo ⟨2, ![R, C]⟩ v hbc (ix2 r c) = v (ix2 (0 : Fin 1) c) :=
  broadcastTo_apply v hbc (ix2 r c) (ix2 (0 : Fin 1) c) fun a =>
    match a with
    | ⟨0, _⟩ => (if_pos rfl).symm
    | ⟨1, _⟩ => col_val c

/-- A row given a leading unit axis by a shape cast reads, at (0, c), its entry c. -/
theorem cast_row_apply (hsc : (⟨1, ![C]⟩ : Shape).ShapeCasts ⟨2, ![1, C]⟩)
    (b : (⟨1, ![C]⟩ : Shape).Idx → α) (c : Fin C) :
    shapeCast ⟨2, ![1, C]⟩ b hsc (ix2 (0 : Fin 1) c) = b (ix1 c) :=
  (shapeCast_addUnit_apply ![C] b hsc (ix2 (0 : Fin 1) c)).trans
    (congrArg b (funext fun a => match a with | ⟨0, _⟩ => rfl))

/-- The vector spelling whole: cast to [1, C], then repeated over R rows, at (r, c). -/
theorem cast_stretch_apply (hsc : (⟨1, ![C]⟩ : Shape).ShapeCasts ⟨2, ![1, C]⟩)
    (hbc : (⟨2, ![1, C]⟩ : Shape).Broadcasts ⟨2, ![R, C]⟩)
    (b : (⟨1, ![C]⟩ : Shape).Idx → α) (r : Fin R) (c : Fin C) :
    broadcastTo ⟨2, ![R, C]⟩ (shapeCast ⟨2, ![1, C]⟩ b hsc) hbc (ix2 r c) = b (ix1 c) :=
  (stretch_row_apply hbc _ r c).trans (cast_row_apply hsc b c)

/-- One row laid out over R rows on axes (0, 1) reads, at (r, c), the row's entry (0, c). -/
theorem layout_rows_apply (hb2 : (⟨2, ![1, C]⟩ : Shape).BroadcastsInDim ⟨2, ![R, C]⟩ (![0, 1] : Fin 2 → Fin 2))
    (v : (⟨2, ![1, C]⟩ : Shape).Idx → α) (r : Fin R) (c : Fin C) :
    broadcastInDim ⟨2, ![R, C]⟩ ![0, 1] hb2 v (ix2 r c) = v (ix2 (0 : Fin 1) c) :=
by
  refine broadcastInDim_apply ![0, 1] hb2 v (ix2 r c) (ix2 (0 : Fin 1) c) fun a => ?_
  match a with
  | ⟨0, _⟩ => exact (if_pos rfl).symm
  | ⟨1, _⟩ => show c.val = if C = 1 then 0 else c.val; exact col_val c

/-- A row laid out as a [1, C] array on axis 1 reads, at (0, c), its entry c. -/
theorem layout_row_apply (hb1 : (⟨1, ![C]⟩ : Shape).BroadcastsInDim ⟨2, ![1, C]⟩ (![1] : Fin 1 → Fin 2))
    (b : (⟨1, ![C]⟩ : Shape).Idx → α) (c : Fin C) :
    broadcastInDim ⟨2, ![1, C]⟩ ![1] hb1 b (ix2 (0 : Fin 1) c) = b (ix1 c) :=
by
  refine broadcastInDim_apply ![1] hb1 b (ix2 (0 : Fin 1) c) (ix1 c) fun a => ?_
  match a with
  | ⟨0, _⟩ => show c.val = if C = 1 then 0 else c.val; exact col_val c

/-- The host spelling whole: laid out as [1, C] on axis 1, then over R rows, at (r, c). -/
theorem layout_layout_apply (hb1 : (⟨1, ![C]⟩ : Shape).BroadcastsInDim ⟨2, ![1, C]⟩ (![1] : Fin 1 → Fin 2))
    (hb2 : (⟨2, ![1, C]⟩ : Shape).BroadcastsInDim ⟨2, ![R, C]⟩ (![0, 1] : Fin 2 → Fin 2))
    (b : (⟨1, ![C]⟩ : Shape).Idx → α) (r : Fin R) (c : Fin C) :
    broadcastInDim ⟨2, ![R, C]⟩ ![0, 1] hb2 (broadcastInDim ⟨2, ![1, C]⟩ ![1] hb1 b) (ix2 r c) = b (ix1 c) :=
  (layout_rows_apply hb2 _ r c).trans (layout_row_apply hb1 b c)

end Cert.BiasRow

end
-- ==== Proof.LibSageDense.lean ====
/-
  One dense stage of a graph-convolution layer, read at an entry over the extended reals.

  From an aggregated-neighbour array  A  and a node-feature array  X  (both [rows, K]), two weight matrices
  Wl, Wr  ([K, C]) and a bias row  b  ([C]) the stage computes, at row r and column c,

      (Σ_k A(r,k) · Wl(k,c)  +  b(c))  +  Σ_k X(r,k) · Wr(k,c)            (`lin`),

  optionally followed by the rectifier max(·, 0). A host program spells it on the whole arrays: two general
  products, the bias laid out over the rows and added to the first product, then the second product added
  (`hostLin`, `hostRelu`). A vector program spells it on a tile of T rows: both products into zero accumulators
  after narrowing every operand to bf16 (the identity on the extended reals), the two products added, then the
  bias row stretched over the tile and added (`tileLin`, `tileRelu`). The two orders of adding the three terms
  agree because addition on the extended reals is commutative and associative (`add_right_comm`); no term needs
  to be finite. Since a row of the result depends only on the same row of  A  and  X , a tile whose rows are rows
  base + p  of the whole arrays computes rows  base + p  of the whole stage (`tile_eq`, `tile_relu_eq`).
-/
import proofs.«176118_j13709535609075_1_alg».proof.Proof.LibDense
import proofs.«176118_j13709535609075_1_alg».proof.Proof.LibBiasRow

noncomputable section

open scoped BigOperators

namespace Cert.SageDense

open Idealize.ShloMosaic Idealize.ShloMosaic.ValueIdx

variable {R T K C : ℕ}

/-- One row of the stage: from the row  a  of the aggregated array and the row  x  of the features,
    (Σ_k a_k · Wl(k,c) + b(c)) + Σ_k x_k · Wr(k,c). -/
def lin (Wl : FVec Ideal ⟨2, ![K, C]⟩ .f32) (b : FVec Ideal ⟨1, ![C]⟩ .f32) (Wr : FVec Ideal ⟨2, ![K, C]⟩ .f32)
    (a x : Fin K → EReal) (c : Fin C) : EReal :=
  ((∑ k : Fin K, a k * Wl (ix2 k c)) + b (ix1 c)) + ∑ k : Fin K, x k * Wr (ix2 k c)

/-- The stage as a host program spells it, on whole arrays. -/
def hostLin (d : DotDims ⟨2, ![R, K]⟩ ⟨2, ![K, C]⟩ ⟨2, ![R, C]⟩)
    (hb1 : (⟨1, ![C]⟩ : Shape).BroadcastsInDim ⟨2, ![1, C]⟩ (![1] : Fin 1 → Fin 2))
    (hb2 : (⟨2, ![1, C]⟩ : Shape).BroadcastsInDim ⟨2, ![R, C]⟩ (![0, 1] : Fin 2 → Fin 2))
    (A X : FVec Ideal ⟨2, ![R, K]⟩ .f32) (Wl : FVec Ideal ⟨2, ![K, C]⟩ .f32) (b : FVec Ideal ⟨1, ![C]⟩ .f32)
    (Wr : FVec Ideal ⟨2, ![K, C]⟩ .f32) : FVec Ideal ⟨2, ![R, C]⟩ .f32 :=
  addf (addf (Host.dotGeneral d none A Wl)
      (broadcastInDim ⟨2, ![R, C]⟩ ![0, 1] hb2 (broadcastInDim ⟨2, ![1, C]⟩ ![1] hb1 b)))
    (Host.dotGeneral d none X Wr)

/-- The host's rectifier: the maximum with the zero scalar laid out over the array. -/
def hostRelu {s : Shape} (hb0 : (⟨0, ![]⟩ : Shape).BroadcastsInDim s (![] : Fin 0 → Fin s.rank))
    (Y : FVec Ideal s .f32) : FVec Ideal s .f32 :=
  maximumf Y (broadcastInDim s ![] hb0 (constant (F := Ideal) ⟨0, ![]⟩ .f32 0x00000000#32))

/-- The stage as a vector program spells it, on a tile of T rows. -/
def tileLin (d : DotDims ⟨2, ![T, K]⟩ ⟨2, ![K, C]⟩ ⟨2, ![T, C]⟩) (hlt : FTy.bits .bf16 < FTy.bits .f32)
    (hsc : (⟨1, ![C]⟩ : Shape).ShapeCasts ⟨2, ![1, C]⟩) (hbc : (⟨2, ![1, C]⟩ : Shape).Broadcasts ⟨2, ![T, C]⟩)
    (At Xt : FVec Ideal ⟨2, ![T, K]⟩ .f32) (Wl : FVec Ideal ⟨2, ![K, C]⟩ .f32) (b : FVec Ideal ⟨1, ![C]⟩ .f32)
    (Wr : FVec Ideal ⟨2, ![K, C]⟩ .f32) : FVec Ideal ⟨2, ![T, C]⟩ .f32 :=
  addf (addf (matmul d none (truncf .bf16 At hlt) (truncf .bf16 Wl hlt) (constant ⟨2, ![T, C]⟩ .f32 0x00000000#32))
      (matmul d none (truncf .bf16 Xt hlt) (truncf .bf16 Wr hlt) (constant ⟨2, ![T, C]⟩ .f32 0x00000000#32)))
    (broadcastTo ⟨2, ![T, C]⟩ (shapeCast ⟨2, ![1, C]⟩ b hsc) hbc)

/-- The vector program's rectifier: the maximum with a splat of the zero word. -/
def tileRelu {s : Shape} (Y : FVec Ideal s .f32) : FVec Ideal s .f32 :=
  maximumf Y (broadcast s (Scalar.ofBits (F := Ideal) .f32 0x00000000#32))

/-- The host's stage at (r, c) is `lin` of row r of the two arrays. -/
theorem hostLin_apply (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (hb1 : (⟨1, ![C]⟩ : Shape).BroadcastsInDim ⟨2, ![1, C]⟩ (![1] : Fin 1 → Fin 2))
    (hb2 : (⟨2, ![1, C]⟩ : Shape).BroadcastsInDim ⟨2, ![R, C]⟩ (![0, 1] : Fin 2 → Fin 2))
    (A X : FVec Ideal ⟨2, ![R, K]⟩ .f32) (Wl : FVec Ideal ⟨2, ![K, C]⟩ .f32) (b : FVec Ideal ⟨1, ![C]⟩ .f32)
    (Wr : FVec Ideal ⟨2, ![K, C]⟩ .f32) (r : Fin R) (c : Fin C) :
    hostLin d hb1 hb2 A X Wl b Wr (ix2 r c) = lin Wl b Wr (fun k => A (ix2 r k)) (fun k => X (ix2 r k)) c := by
  unfold hostLin lin
  -- the outer sum at (r, c); the first summand is one affine layer, the second a plain product
  rw [addf_apply, Cert.Dense.host_affine_apply d h1 h2 h3 h4 h5 h6 hb1 hb2,
    Cert.Dense.dotGeneral_plain_apply d h1 h2 h3 h4 h5 h6]
  rfl

/-- The tile's stage at (p, c) is `lin` of row p of the two tiles: the three terms are added in another order,
    which on the extended reals changes nothing. -/
theorem tileLin_apply (d : DotDims ⟨2, ![T, K]⟩ ⟨2, ![K, C]⟩ ⟨2, ![T, C]⟩)
    (h1 : d.lhsContracting = [1]) (h2 : d.rhsContracting = [0]) (h3 : d.lhsNonContracting = [0])
    (h4 : d.rhsNonContracting = [1]) (h5 : d.lhsBatch = []) (h6 : d.rhsBatch = [])
    (hlt : FTy.bits .bf16 < FTy.bits .f32)
    (hsc : (⟨1, ![C]⟩ : Shape).ShapeCasts ⟨2, ![1, C]⟩) (hbc : (⟨2, ![1, C]⟩ : Shape).Broadcasts ⟨2, ![T, C]⟩)
    (At Xt : FVec Ideal ⟨2, ![T, K]⟩ .f32) (Wl : FVec Ideal ⟨2, ![K, C]⟩ .f32) (b : FVec Ideal ⟨1, ![C]⟩ .f32)
    (Wr : FVec Ideal ⟨2, ![K, C]⟩ .f32) (p : Fin T) (c : Fin C) :
    tileLin d hlt hsc hbc At Xt Wl b Wr (ix2 p c)
      = lin Wl b Wr (fun k => At (ix2 p k)) (fun k => Xt (ix2 p k)) c := by
  unfold tileLin lin
  rw [addf_apply, addf_apply, Cert.Dense.matmul_zero_plain_apply d h1 h2 h3 h4 h5 h6,
    Cert.Dense.matmul_zero_plain_apply d h1 h2 h3 h4 h5 h6, Cert.BiasRow.cast_stretch_apply hsc hbc b p c]
  -- narrowing to bf16 is the identity; (s₁ + s₂) + b = (s₁ + b) + s₂
  simp only [truncf_apply]
  exact add_right_comm _ _ _

/-- A tile whose row p is row r of the whole arrays (and whose weights and bias are the whole stage's at the
    column c) computes, at (p, c), the whole stage's entry (r, c). -/
theorem tile_eq (dT : DotDims ⟨2, ![T, K]⟩ ⟨2, ![K, C]⟩ ⟨2, ![T, C]⟩)
    (t1 : dT.lhsContracting = [1]) (t2 : dT.rhsContracting = [0]) (t3 : dT.lhsNonContracting = [0])
    (t4 : dT.rhsNonContracting = [1]) (t5 : dT.lhsBatch = []) (t6 : dT.rhsBatch = [])
    (dR : DotDims ⟨2, ![R, K]⟩ ⟨2, ![K, C]⟩ ⟨2, ![R, C]⟩)
    (r1 : dR.lhsContracting = [1]) (r2 : dR.rhsContracting = [0]) (r3 : dR.lhsNonContracting = [0])
    (r4 : dR.rhsNonContracting = [1]) (r5 : dR.lhsBatch = []) (r6 : dR.rhsBatch = [])
    (hlt : FTy.bits .bf16 < FTy.bits .f32)
    (hsc : (⟨1, ![C]⟩ : Shape).ShapeCasts ⟨2, ![1, C]⟩) (hbc : (⟨2, ![1, C]⟩ : Shape).Broadcasts ⟨2, ![T, C]⟩)
    (hb1 : (⟨1, ![C]⟩ : Shape).BroadcastsInDim ⟨2, ![1, C]⟩ (![1] : Fin 1 → Fin 2))
    (hb2 : (⟨2, ![1, C]⟩ : Shape).BroadcastsInDim ⟨2, ![R, C]⟩ (![0, 1] : Fin 2 → Fin 2))
    (At Xt : FVec Ideal ⟨2, ![T, K]⟩ .f32) (Wlt : FVec Ideal ⟨2, ![K, C]⟩ .f32) (bt : FVec Ideal ⟨1, ![C]⟩ .f32)
    (Wrt : FVec Ideal ⟨2, ![K, C]⟩ .f32)
    (A X : FVec Ideal ⟨2, ![R, K]⟩ .f32) (Wl : FVec Ideal ⟨2, ![K, C]⟩ .f32) (b : FVec Ideal ⟨1, ![C]⟩ .f32)
    (Wr : FVec Ideal ⟨2, ![K, C]⟩ .f32) (p : Fin T) (r : Fin R) (c : Fin C)
    (hA : ∀ k : Fin K, At (ix2 p k) = A (ix2 r k)) (hX : ∀ k : Fin K, Xt (ix2 p k) = X (ix2 r k))
    (hWl : ∀ k : Fin K, Wlt (ix2 k c) = Wl (ix2 k c)) (hb : bt (ix1 c) = b (ix1 c))
    (hWr : ∀ k : Fin K, Wrt (ix2 k c) = Wr (ix2 k c)) :
    tileLin dT hlt hsc hbc At Xt Wlt bt Wrt (ix2 p c) = hostLin dR hb1 hb2 A X Wl b Wr (ix2 r c) := by
  rw [tileLin_apply dT t1 t2 t3 t4 t5 t6, hostLin_apply dR r1 r2 r3 r4 r5 r6]
  unfold lin
  simp only [hA, hX, hWl, hWr, hb]

/-- The same with the rectifier after the stage on both sides. -/
theorem tile_relu_eq (dT : DotDims ⟨2, ![T, K]⟩ ⟨2, ![K, C]⟩ ⟨2, ![T, C]⟩)
    (t1 : dT.lhsContracting = [1]) (t2 : dT.rhsContracting = [0]) (t3 : dT.lhsNonContracting = [0])
    (t4 : dT.rhsNonContracting = [1]) (t5 : dT.lhsBatch = []) (t6 : dT.rhsBatch = [])
    (dR : DotDims ⟨2, ![R, K]⟩ ⟨2, ![K, C]⟩ ⟨2, ![R, C]⟩)
    (r1 : dR.lhsContracting = [1]) (r2 : dR.rhsContracting = [0]) (r3 : dR.lhsNonContracting = [0])
    (r4 : dR.rhsNonContracting = [1]) (r5 : dR.lhsBatch = []) (r6 : dR.rhsBatch = [])
    (hlt : FTy.bits .bf16 < FTy.bits .f32)
    (hsc : (⟨1, ![C]⟩ : Shape).ShapeCasts ⟨2, ![1, C]⟩) (hbc : (⟨2, ![1, C]⟩ : Shape).Broadcasts ⟨2, ![T, C]⟩)
    (hb1 : (⟨1, ![C]⟩ : Shape).BroadcastsInDim ⟨2, ![1, C]⟩ (![1] : Fin 1 → Fin 2))
    (hb2 : (⟨2, ![1, C]⟩ : Shape).BroadcastsInDim ⟨2, ![R, C]⟩ (![0, 1] : Fin 2 → Fin 2))
    (hb0 : (⟨0, ![]⟩ : Shape).BroadcastsInDim ⟨2, ![R, C]⟩ (![] : Fin 0 → Fin 2))
    (At Xt : FVec Ideal ⟨2, ![T, K]⟩ .f32) (Wlt : FVec Ideal ⟨2, ![K, C]⟩ .f32) (bt : FVec Ideal ⟨1, ![C]⟩ .f32)
    (Wrt : FVec Ideal ⟨2, ![K, C]⟩ .f32)
    (A X : FVec Ideal ⟨2, ![R, K]⟩ .f32) (Wl : FVec Ideal ⟨2, ![K, C]⟩ .f32) (b : FVec Ideal ⟨1, ![C]⟩ .f32)
    (Wr : FVec Ideal ⟨2, ![K, C]⟩ .f32) (p : Fin T) (r : Fin R) (c : Fin C)
    (hA : ∀ k : Fin K, At (ix2 p k) = A (ix2 r k)) (hX : ∀ k : Fin K, Xt (ix2 p k) = X (ix2 r k))
    (hWl : ∀ k : Fin K, Wlt (ix2 k c) = Wl (ix2 k c)) (hb : bt (ix1 c) = b (ix1 c))
    (hWr : ∀ k : Fin K, Wrt (ix2 k c) = Wr (ix2 k c)) :
    tileRelu (tileLin dT hlt hsc hbc At Xt Wlt bt Wrt) (ix2 p c)
      = hostRelu hb0 (hostLin dR hb1 hb2 A X Wl b Wr) (ix2 r c) := by
  unfold tileRelu hostRelu
  rw [Cert.Dense.kernel_relu_apply, Cert.Dense.host_relu_apply hb0,
    tile_eq dT t1 t2 t3 t4 t5 t6 dR r1 r2 r3 r4 r5 r6 hlt hsc hbc hb1 hb2 At Xt Wlt bt Wrt A X Wl b Wr p r c
      hA hX hWl hb hWr]

end Cert.SageDense

end
-- ==== Proof.Layers.lean ====
/-
  The three-layer mean-aggregation network that both programs compute, as one function of the arguments.

  Each layer first averages, for every node, the feature rows of the edges arriving at it (`mean`): the rows of  X
  at the source ids (a negative id wrapped once by the number of nodes) are summed into their destination node, and
  the sum is divided by the number of arriving edges, or by one for a node with none. The averaged array and  X
  itself then go through one dense stage (Proof/LibSageDense.lean): two products, a bias row, and, in the first two
  layers, the rectifier (`layer128`, `layer64`). The network is the three layers in sequence over the same edge
  table (`net`). All of it is spelled with the host operations of the reference program, so that the reference's
  result is this term by unfolding.
-/
import proofs.«176118_j13709535609075_1_alg».proof.ReferenceIdeal
import proofs.«176118_j13709535609075_1_alg».proof.Proof.LibSageDense

noncomputable section

namespace Cert.Sage

open Idealize.ShloMosaic Cert.ReferenceIdeal Cert.ReferenceIdeal.Facts₀

variable [Cert.ReferenceIdeal.Facts]

/-- Row 0 of the [2, E] edge table: the source node of every edge. -/
def srcRow (E : IVec S2x1600000 32) : IVec S1600000 32 :=
  shapeCast S1600000 (extractStridedSlice S1x1600000 ![0, 0] E slices_S2x1600000_S1x1600000_0_0) shapeCasts_S1x1600000_S1600000

/-- Row 1 of the edge table: the destination node of every edge. -/
def dstRow (E : IVec S2x1600000 32) : IVec S1600000 32 :=
  shapeCast S1600000 (extractStridedSlice S1x1600000 ![1, 0] E slices_S2x1600000_S1x1600000_1_0) shapeCasts_S1x1600000_S1600000

/-- The mean of the source rows of  X  over the edges arriving at each node: gather at the wrapped source ids,
    scatter-add at the destination ids into zeros, divide by max(count, 1). -/
def mean (X : FVec Ideal S100000x128 .f32) (s d : IVec S1600000 32) : FVec Ideal S100000x128 .f32 :=
  Host.divf
    (Host.scatterAdd scatter_S100000x128_S1600000x1_S1600000x128_1_0_0_1
      (broadcastInDim S100000x128 ![] bcast_S_S100000x128 (constant (F := Ideal) S_ .f32 0x00000000#32))
      (broadcastInDim S1600000x1 ![0] bcast_S1600000_S1600000x1_0 d)
      (Host.gather gather_S100000x128_S1600000x1_S1600000x128_1_0_n_n_0_1_1128 X
        (broadcastInDim S1600000x1 ![0] bcast_S1600000_S1600000x1_0
          (select (cmpi .slt s (broadcastInDim S1600000 ![] bcast_S_S1600000 (constantI S_ 32 0#32)))
            (addi s (broadcastInDim S1600000 ![] bcast_S_S1600000 (constantI S_ 32 100000#32))) s))))
    (broadcastInDim S100000x128 ![0, 1] bcast_S100000x1_S100000x128_0_1
      (broadcastInDim S100000x1 ![0] bcast_S100000_S100000x1_0
        (maximumf
          (Host.scatterAdd scatter_S100000_S1600000x1_S1600000_n_0_0_1
            (broadcastInDim S100000 ![] bcast_S_S100000 (constant (F := Ideal) S_ .f32 0x00000000#32))
            (broadcastInDim S1600000x1 ![0] bcast_S1600000_S1600000x1_0 d)
            (broadcastInDim S1600000 ![] bcast_S_S1600000 (constant (F := Ideal) S_ .f32 0x3F800000#32)))
          (broadcastInDim S100000 ![] bcast_S_S100000 (constant (F := Ideal) S_ .f32 0x3F800000#32)))))

/-- The dense stage of width 128 with the rectifier, on an aggregated array  A  and the features  X . -/
def dense128 (A X : FVec Ideal S100000x128 .f32) (Wl : FVec Ideal S128x128 .f32) (b : FVec Ideal S128 .f32)
    (Wr : FVec Ideal S128x128 .f32) : FVec Ideal S100000x128 .f32 :=
  Cert.SageDense.hostRelu bcast_S_S100000x128
    (Cert.SageDense.hostLin dot_S100000x128_S128x128_S100000x128_1_0_0_1_n_n bcast_S128_S1x128_1
      bcast_S1x128_S100000x128_0_1 A X Wl b Wr)

/-- The dense stage of width 64, no rectifier. -/
def dense64 (A X : FVec Ideal S100000x128 .f32) (Wl : FVec Ideal S128x64 .f32) (b : FVec Ideal S64 .f32)
    (Wr : FVec Ideal S128x64 .f32) : FVec Ideal S100000x64 .f32 :=
  Cert.SageDense.hostLin dot_S100000x128_S128x64_S100000x64_1_0_0_1_n_n bcast_S64_S1x64_1
    bcast_S1x64_S100000x64_0_1 A X Wl b Wr

/-- A hidden layer: average the neighbours, then the dense stage with the rectifier. -/
def layer128 (X : FVec Ideal S100000x128 .f32) (s d : IVec S1600000 32) (Wl : FVec Ideal S128x128 .f32)
    (b : FVec Ideal S128 .f32) (Wr : FVec Ideal S128x128 .f32) : FVec Ideal S100000x128 .f32 :=
  dense128 (mean X s d) X Wl b Wr

/-- The output layer: average the neighbours, then the dense stage of width 64. -/
def layer64 (X : FVec Ideal S100000x128 .f32) (s d : IVec S1600000 32) (Wl : FVec Ideal S128x64 .f32)
    (b : FVec Ideal S64 .f32) (Wr : FVec Ideal S128x64 .f32) : FVec Ideal S100000x64 .f32 :=
  dense64 (mean X s d) X Wl b Wr

/-- The network: two hidden layers and the output layer over one edge table. -/
def net (X : FVec Ideal S100000x128 .f32) (E : IVec S2x1600000 32)
    (Wl0 : FVec Ideal S128x128 .f32) (b0 : FVec Ideal S128 .f32) (Wr0 : FVec Ideal S128x128 .f32)
    (Wl1 : FVec Ideal S128x128 .f32) (b1 : FVec Ideal S128 .f32) (Wr1 : FVec Ideal S128x128 .f32)
    (Wl2 : FVec Ideal S128x64 .f32) (b2 : FVec Ideal S64 .f32) (Wr2 : FVec Ideal S128x64 .f32) :
    FVec Ideal S100000x64 .f32 :=
  layer64 (layer128 (layer128 X (srcRow E) (dstRow E) Wl0 b0 Wr0) (srcRow E) (dstRow E) Wl1 b1 Wr1)
    (srcRow E) (dstRow E) Wl2 b2 Wr2

end Cert.Sage

end
-- ==== Proof.Region0.lean ====
/-
  The first pallas_call's result array as one function of the arrays the region finds.

  The call runs over 20 grid points. Point t fetches rows 5000·t … 5000·t + 4999 of the aggregated array and of the
  feature array (windows 0 and 1), the two weight matrices and the bias row whole (windows 2, 4 and 3), and writes
  back rows 5000·t … 5000·t + 4999 of the result (window 5). The body computes, on that tile, the dense stage with
  the rectifier (Proof/LibSageDense.lean, `tileRelu (tileLin …)`). Because a row of the stage depends only on the same
  row of its two inputs, the tile written at point t is block t of the whole-array stage `Cert.Sage.dense128` of the
  five arrays (`flushed`); the twenty blocks tile the 100000 rows (`cover`), so after the last point the result
  array holds that whole-array stage (`final`). Everything is stated at an arbitrary region-entry contents `V`.
-/
import proofs.«176118_j13709535609075_1_alg».proof.Proof.Gen.KernelIdeal.Frame
import proofs.«176118_j13709535609075_1_alg».proof.Proof.Layers
import Idealize.ShloMosaic.Lib.Pipeline.Value
import Idealize.ShloMosaic.Lib.ValueIdx

set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat)

variable [hR : Cert.ReferenceIdeal.Facts]
variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The printed index maps over the grid: the two row-tiled inputs and the output are at block (t, 0), the weights
    and the bias at block 0. -/
theorem idx : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row x₀ of the aggregated array's block at point t is row 5000·t + x₀ of the array. -/
theorem blkA (c : Dev nD) (t : Fin cfg0.N) (x : S5000x128.Idx) (i : S100000x128.Idx)
    (h0 : (i 0).val = 5000 * t.val + (x 0).val) (h1 : (i 1).val = (x 1).val) :
    (iblk0 V c 0 t : Vec Ideal S5000x128 .f32) x = (V c main_v22 : S100000x128.Idx → Elt Ideal .f32) i := by
  obtain ⟨e0, e1, -⟩ := idx t
  unfold iblk0
  rw [View.read_apply]
  show V c main_v22 _ = V c main_v22 _
  congr 1
  funext a
  apply Fin.ext
  match a with
  | ⟨0, _⟩ => show win0_0.index t 0 * 5000 + 1 * (x 0).val = (i 0).val; rw [e0, h0]; omega
  | ⟨1, _⟩ => show win0_0.index t 1 * 128 + 1 * (x 1).val = (i 1).val; rw [e1, h1]; omega

/-- Row x₀ of the feature array's block at point t is row 5000·t + x₀ of the array. -/
theorem blkX (c : Dev nD) (t : Fin cfg0.N) (x : S5000x128.Idx) (i : S100000x128.Idx)
    (h0 : (i 0).val = 5000 * t.val + (x 0).val) (h1 : (i 1).val = (x 1).val) :
    (iblk0 V c 1 t : Vec Ideal S5000x128 .f32) x = (V c main_arg0 : S100000x128.Idx → Elt Ideal .f32) i := by
  obtain ⟨-, -, e0, e1, -⟩ := idx t
  unfold iblk0
  rw [View.read_apply]
  show V c main_arg0 _ = V c main_arg0 _
  congr 1
  funext a
  apply Fin.ext
  match a with
  | ⟨0, _⟩ => show win0_1.index t 0 * 5000 + 1 * (x 0).val = (i 0).val; rw [e0, h0]; omega
  | ⟨1, _⟩ => show win0_1.index t 1 * 128 + 1 * (x 1).val = (i 1).val; rw [e1, h1]; omega

/-- The left weight matrix's block is the matrix. -/
theorem blkWl (c : Dev nD) (t : Fin cfg0.N) (x : S128x128.Idx) :
    (iblk0 V c 2 t : Vec Ideal S128x128 .f32) x = (V c main_arg2 : S128x128.Idx → Elt Ideal .f32) x := by
  obtain ⟨-, -, -, -, e0, e1, -⟩ := idx t
  unfold iblk0
  rw [View.read_apply]
  show V c main_arg2 _ = V c main_arg2 _
  congr 1
  funext a
  apply Fin.ext
  match a with
  | ⟨0, _⟩ => show win0_2.index t 0 * 128 + 1 * (x 0).val = (x 0).val; rw [e0]; omega
  | ⟨1, _⟩ => show win0_2.index t 1 * 128 + 1 * (x 1).val = (x 1).val; rw [e1]; omega

/-- The bias row's block is the row. -/
theorem blkb (c : Dev nD) (t : Fin cfg0.N) (x : S128.Idx) :
    (iblk0 V c 3 t : Vec Ideal S128 .f32) x = (V c main_arg3 : S128.Idx → Elt Ideal .f32) x := by
  obtain ⟨-, -, -, -, -, -, e0, -⟩ := idx t
  unfold iblk0
  rw [View.read_apply]
  show V c main_arg3 _ = V c main_arg3 _
  congr 1
  funext a
  apply Fin.ext
  match a with
  | ⟨0, _⟩ => show win0_3.index t 0 * 128 + 1 * (x 0).val = (x 0).val; rw [e0]; omega

/-- The right weight matrix's block is the matrix. -/
theorem blkWr (c : Dev nD) (t : Fin cfg0.N) (x : S128x128.Idx) :
    (iblk0 V c 4 t : Vec Ideal S128x128 .f32) x = (V c main_arg4 : S128x128.Idx → Elt Ideal .f32) x := by
  obtain ⟨-, -, -, -, -, -, -, e0, e1, -⟩ := idx t
  unfold iblk0
  rw [View.read_apply]
  show V c main_arg4 _ = V c main_arg4 _
  congr 1
  funext a
  apply Fin.ext
  match a with
  | ⟨0, _⟩ => show win0_4.index t 0 * 128 + 1 * (x 0).val = (x 0).val; rw [e0]; omega
  | ⟨1, _⟩ => show win0_4.index t 1 * 128 + 1 * (x 1).val = (x 1).val; rw [e1]; omega

/-- What the result array ends holding: the whole-array dense stage with the rectifier, of the aggregated array, the
    features, the two weight matrices and the bias as the region finds them. -/
abbrev G (c : Dev nD) : FVec Ideal S100000x128 .f32 :=
  Cert.Sage.dense128 (V c main_v22) (V c main_arg0) (V c main_arg2) (V c main_arg3) (V c main_arg4)

/-- The body's payload on point t's blocks, at row j₀ of the tile, is the whole-array stage at row 5000·t + j₀. -/
theorem pay_at (c : Dev nD) (t : Fin cfg0.N) (j : S5000x128.Idx) (i : S100000x128.Idx)
    (h0 : (i 0).val = 5000 * t.val + (j 0).val) (h1 : (i 1).val = (j 1).val) :
    k0_pay1 (iblk0 V c 0 t) (iblk0 V c 1 t) (iblk0 V c 2 t) (iblk0 V c 4 t) (iblk0 V c 3 t) j = G V c i := by
  obtain ⟨p, q, rfl⟩ : ∃ (p : Fin 5000) (q : Fin 128), j = ix2 p q := ⟨j 0, j 1, eq_ix2 j⟩
  obtain ⟨r, q', rfl⟩ : ∃ (r : Fin 100000) (q' : Fin 128), i = ix2 r q' := ⟨i 0, i 1, eq_ix2 i⟩
  have hq : q' = q := Fin.ext h1
  subst hq
  have hr : r.val = 5000 * t.val + p.val := h0
  unfold k0_pay1
  show Cert.SageDense.tileRelu (Cert.SageDense.tileLin dot_S5000x128_S128x128_S5000x128_1_0_0_1_n_n bitsLt_bf16_f32
      shapeCasts_S128_S1x128 broadcasts_S1x128_S5000x128
      (shapeCast S5000x128 (iblk0 V c 0 t) shapeCasts_S5000x128_S5000x128) (iblk0 V c 1 t) (iblk0 V c 2 t)
      (iblk0 V c 3 t) (iblk0 V c 4 t)) (ix2 p q') = _
  unfold G Cert.Sage.dense128
  refine Cert.SageDense.tile_relu_eq _ rfl rfl rfl rfl rfl rfl _ rfl rfl rfl rfl rfl rfl _ _ _ _ _ _ _ _ _ _ _ _ _ _ _ _
    p r q' ?_ ?_ ?_ ?_ ?_
  · intro k
    exact (congrFun (shapeCast_self (s := S5000x128) _ shapeCasts_S5000x128_S5000x128) (ix2 p k)).trans
      (blkA V c t (ix2 p k) (ix2 r k) hr rfl)
  · intro k; exact blkX V c t (ix2 p k) (ix2 r k) hr rfl
  · intro k; exact blkWl V c t (ix2 k q')
  · exact blkb V c t (ix1 q')
  · intro k; exact blkWr V c t (ix2 k q')

/-- What point t writes back is block t of `G`. -/
theorem flushed (c : Dev nD) (t : Fin cfg0.N) :
    (dat0 V c).flushed 5 t = ((cfg0.win 5).blk t).view.read (Elt Ideal) (G V c) := by
  show (cfg0.win 5).cut (grid0.coords t) ((dat0 V c).after 5 t) = _
  rw [after0_5]
  unfold out0_5
  rw [View.canon_unit_zero hz2]
  simp only [View.ld_unit_zero (S := S5000x128) hz2, View.ld_unit_zero (S := S128x128) hz2,
    View.ld_unit_zero (S := S128) hz1]
  obtain ⟨-, -, -, -, -, -, -, -, -, e0, e1⟩ := idx t
  funext j
  show k0_pay1 (iblk0 V c 0 t) (iblk0 V c 1 t) (iblk0 V c 2 t) (iblk0 V c 4 t) (iblk0 V c 3 t) j
    = G V c (((cfg0.win 5).blk t).view.emb j)
  refine pay_at V c t j _ ?_ ?_
  · show win0_5.index t 0 * 5000 + 1 * (j 0).val = 5000 * t.val + (j 0).val; rw [e0]; omega
  · show win0_5.index t 1 * 128 + 1 * (j 1).val = (j 1).val; rw [e1]; omega

/-- An index of the result array is in point t's block iff each coordinate is in the block's range on its axis. -/
theorem mem_blk (t : Fin cfg0.N) (i : S100000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v23).slice (win0_5.rect t)).set ↔ _
  rw [View.set_slice_whole, Rect.mem_set_unit]
  exact Iff.rfl

/-- Row i₀ of the result array lies in the block of point i₀ / 5000. -/
theorem cover (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 20 := N_0
  obtain ⟨t, ht⟩ : ∃ t : Fin cfg0.N, t.val = (i 0).val / 5000 := ⟨⟨(i 0).val / 5000, by rw [hN]; omega⟩, rfl⟩
  obtain ⟨-, -, -, -, -, -, -, -, -, e0, e1⟩ := idx t
  refine ⟨t, flush0_5 t, ?_⟩
  rw [mem_blk]
  intro a
  match a with
  | ⟨0, _⟩ =>
    show win0_5.index t 0 * 5000 ≤ (i 0).val ∧ (i 0).val < win0_5.index t 0 * 5000 + 5000
    rw [e0, ht]; omega
  | ⟨1, _⟩ =>
    show win0_5.index t 1 * 128 ≤ (i 1).val ∧ (i 1).val < win0_5.index t 1 * 128 + 128
    rw [e1]; omega

/-- After the last point the result array holds the whole-array stage. -/
theorem final (c : Dev nD) : (dat0 V c).arrAt 5 cfg0.N = G V c :=
  (dat0 V c).arrAt_eq_of_cover 5 (G V c) (fun t _ => flushed V c t) cover

end Cert.KernelIdeal.Region0

end
-- ==== Proof.Region1.lean ====
/-
  The second pallas_call's result array as one function of the arrays the region finds.

  As in the first call, point t of the 20 grid points fetches rows 5000·t … 5000·t + 4999 of the aggregated array
  (window 0) and of the previous layer's output (window 1, here a result of the first call, not an argument), this
  layer's two weight matrices and bias row whole (windows 2, 4, 3), and writes back the same rows of the result
  (window 5). The body is the dense stage with the rectifier on the tile (`tileRelu (tileLin …)` of
  Proof/LibSageDense.lean; here both row-tiled operands pass through an identity shape cast before they are narrowed).
  Block t of the whole-array stage `Cert.Sage.dense128` is what point t writes (`flushed`), the blocks tile the rows
  (`cover`), so the result array ends holding the whole-array stage (`final`), at an arbitrary region-entry
  contents `V`.
-/
import proofs.«176118_j13709535609075_1_alg».proof.Proof.Gen.KernelIdeal.Frame
import proofs.«176118_j13709535609075_1_alg».proof.Proof.Layers
import Idealize.ShloMosaic.Lib.Pipeline.Value
import Idealize.ShloMosaic.Lib.ValueIdx

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat)

variable [hR : Cert.ReferenceIdeal.Facts]
variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The printed index maps over the grid: the two row-tiled inputs and the output are at block (t, 0), the weights
    and the bias at block 0. -/
theorem idx : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row x₀ of the aggregated array's block at point t is row 5000·t + x₀ of the array. -/
theorem blkA (c : Dev nD) (t : Fin cfg1.N) (x : S5000x128.Idx) (i : S100000x128.Idx)
    (h0 : (i 0).val = 5000 * t.val + (x 0).val) (h1 : (i 1).val = (x 1).val) :
    (iblk1 V c 0 t : Vec Ideal S5000x128 .f32) x = (V c main_v42 : S100000x128.Idx → Elt Ideal .f32) i := by
  obtain ⟨e0, e1, -⟩ := idx t
  unfold iblk1
  rw [View.read_apply]
  show V c main_v42 _ = V c main_v42 _
  congr 1
  funext a
  apply Fin.ext
  match a with
  | ⟨0, _⟩ => show win1_0.index t 0 * 5000 + 1 * (x 0).val = (i 0).val; rw [e0, h0]; omega
  | ⟨1, _⟩ => show win1_0.index t 1 * 128 + 1 * (x 1).val = (i 1).val; rw [e1, h1]; omega

/-- Row x₀ of the block at point t of the previous layer's output is row 5000·t + x₀ of that array. -/
theorem blkX (c : Dev nD) (t : Fin cfg1.N) (x : S5000x128.Idx) (i : S100000x128.Idx)
    (h0 : (i 0).val = 5000 * t.val + (x 0).val) (h1 : (i 1).val = (x 1).val) :
    (iblk1 V c 1 t : Vec Ideal S5000x128 .f32) x = (V c main_v23 : S100000x128.Idx → Elt Ideal .f32) i := by
  obtain ⟨-, -, e0, e1, -⟩ := idx t
  unfold iblk1
  rw [View.read_apply]
  show V c main_v23 _ = V c main_v23 _
  congr 1
  funext a
  apply Fin.ext
  match a with
  | ⟨0, _⟩ => show win1_1.index t 0 * 5000 + 1 * (x 0).val = (i 0).val; rw [e0, h0]; omega
  | ⟨1, _⟩ => show win1_1.index t 1 * 128 + 1 * (x 1).val = (i 1).val; rw [e1, h1]; omega

/-- The left weight matrix's block is the matrix. -/
theorem blkWl (c : Dev nD) (t : Fin cfg1.N) (x : S128x128.Idx) :
    (iblk1 V c 2 t : Vec Ideal S128x128 .f32) x = (V c main_arg5 : S128x128.Idx → Elt Ideal .f32) x := by
  obtain ⟨-, -, -, -, e0, e1, -⟩ := idx t
  unfold iblk1
  rw [View.read_apply]
  show V c main_arg5 _ = V c main_arg5 _
  congr 1
  funext a
  apply Fin.ext
  match a with
  | ⟨0, _⟩ => show win1_2.index t 0 * 128 + 1 * (x 0).val = (x 0).val; rw [e0]; omega
  | ⟨1, _⟩ => show win1_2.index t 1 * 128 + 1 * (x 1).val = (x 1).val; rw [e1]; omega

/-- The bias row's block is the row. -/
theorem blkb (c : Dev nD) (t : Fin cfg1.N) (x : S128.Idx) :
    (iblk1 V c 3 t : Vec Ideal S128 .f32) x = (V c main_arg6 : S128.Idx → Elt Ideal .f32) x := by
  obtain ⟨-, -, -, -, -, -, e0, -⟩ := idx t
  unfold iblk1
  rw [View.read_apply]
  show V c main_arg6 _ = V c main_arg6 _
  congr 1
  funext a
  apply Fin.ext
  match a with
  | ⟨0, _⟩ => show win1_3.index t 0 * 128 + 1 * (x 0).val = (x 0).val; rw [e0]; omega

/-- The right weight matrix's block is the matrix. -/
theorem blkWr (c : Dev nD) (t : Fin cfg1.N) (x : S128x128.Idx) :
    (iblk1 V c 4 t : Vec Ideal S128x128 .f32) x = (V c main_arg7 : S128x128.Idx → Elt Ideal .f32) x := by
  obtain ⟨-, -, -, -, -, -, -, e0, e1, -⟩ := idx t
  unfold iblk1
  rw [View.read_apply]
  show V c main_arg7 _ = V c main_arg7 _
  congr 1
  funext a
  apply Fin.ext
  match a with
  | ⟨0, _⟩ => show win1_4.index t 0 * 128 + 1 * (x 0).val = (x 0).val; rw [e0]; omega
  | ⟨1, _⟩ => show win1_4.index t 1 * 128 + 1 * (x 1).val = (x 1).val; rw [e1]; omega

/-- What the result array ends holding: the whole-array dense stage with the rectifier, of the aggregated array,
    the previous layer's output, the two weight matrices and the bias as the region finds them. -/
abbrev G (c : Dev nD) : FVec Ideal S100000x128 .f32 :=
  Cert.Sage.dense128 (V c main_v42) (V c main_v23) (V c main_arg5) (V c main_arg6) (V c main_arg7)

/-- The body's payload on point t's blocks, at row j₀ of the tile, is the whole-array stage at row 5000·t + j₀. -/
theorem pay_at (c : Dev nD) (t : Fin cfg1.N) (j : S5000x128.Idx) (i : S100000x128.Idx)
    (h0 : (i 0).val = 5000 * t.val + (j 0).val) (h1 : (i 1).val = (j 1).val) :
    k1_pay1 (iblk1 V c 0 t) (iblk1 V c 1 t) (iblk1 V c 2 t) (iblk1 V c 4 t) (iblk1 V c 3 t) j = G V c i := by
  obtain ⟨p, q, rfl⟩ : ∃ (p : Fin 5000) (q : Fin 128), j = ix2 p q := ⟨j 0, j 1, eq_ix2 j⟩
  obtain ⟨r, q', rfl⟩ : ∃ (r : Fin 100000) (q' : Fin 128), i = ix2 r q' := ⟨i 0, i 1, eq_ix2 i⟩
  have hq : q' = q := Fin.ext h1
  subst hq
  have hr : r.val = 5000 * t.val + p.val := h0
  unfold k1_pay1
  show Cert.SageDense.tileRelu (Cert.SageDense.tileLin dot_S5000x128_S128x128_S5000x128_1_0_0_1_n_n bitsLt_bf16_f32
      shapeCasts_S128_S1x128 broadcasts_S1x128_S5000x128
      (shapeCast S5000x128 (iblk1 V c 0 t) shapeCasts_S5000x128_S5000x128) (shapeCast S5000x128 (iblk1 V c 1 t) shapeCasts_S5000x128_S5000x128) (iblk1 V c 2 t)
      (iblk1 V c 3 t) (iblk1 V c 4 t)) (ix2 p q') = _
  unfold G Cert.Sage.dense128
  refine Cert.SageDense.tile_relu_eq _ rfl rfl rfl rfl rfl rfl _ rfl rfl rfl rfl rfl rfl _ _ _ _ _ _ _ _ _ _ _ _ _ _ _ _
    p r q' ?_ ?_ ?_ ?_ ?_
  · intro k
    exact (congrFun (shapeCast_self (s := S5000x128) _ shapeCasts_S5000x128_S5000x128) (ix2 p k)).trans
      (blkA V c t (ix2 p k) (ix2 r k) hr rfl)
  · intro k
    exact (congrFun (shapeCast_self (s := S5000x128) _ shapeCasts_S5000x128_S5000x128) (ix2 p k)).trans
      (blkX V c t (ix2 p k) (ix2 r k) hr rfl)
  · intro k; exact blkWl V c t (ix2 k q')
  · exact blkb V c t (ix1 q')
  · intro k; exact blkWr V c t (ix2 k q')

/-- What point t writes back is block t of `G`. -/
theorem flushed (c : Dev nD) (t : Fin cfg1.N) :
    (dat1 V c).flushed 5 t = ((cfg1.win 5).blk t).view.read (Elt Ideal) (G V c) := by
  show (cfg1.win 5).cut (grid1.coords t) ((dat1 V c).after 5 t) = _
  rw [after1_5]
  unfold out1_5
  rw [View.canon_unit_zero hz2]
  simp only [View.ld_unit_zero (S := S5000x128) hz2, View.ld_unit_zero (S := S128x128) hz2,
    View.ld_unit_zero (S := S128) hz1]
  obtain ⟨-, -, -, -, -, -, -, -, -, e0, e1⟩ := idx t
  funext j
  show k1_pay1 (iblk1 V c 0 t) (iblk1 V c 1 t) (iblk1 V c 2 t) (iblk1 V c 4 t) (iblk1 V c 3 t) j
    = G V c (((cfg1.win 5).blk t).view.emb j)
  refine pay_at V c t j _ ?_ ?_
  · show win1_5.index t 0 * 5000 + 1 * (j 0).val = 5000 * t.val + (j 0).val; rw [e0]; omega
  · show win1_5.index t 1 * 128 + 1 * (j 1).val = (j 1).val; rw [e1]; omega

/-- An index of the result array is in point t's block iff each coordinate is in the block's range on its axis. -/
theorem mem_blk (t : Fin cfg1.N) (i : S100000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v43).slice (win1_5.rect t)).set ↔ _
  rw [View.set_slice_whole, Rect.mem_set_unit]
  exact Iff.rfl

/-- Row i₀ of the result array lies in the block of point i₀ / 5000. -/
theorem cover (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  have hN : cfg1.N = 20 := N_1
  obtain ⟨t, ht⟩ : ∃ t : Fin cfg1.N, t.val = (i 0).val / 5000 := ⟨⟨(i 0).val / 5000, by rw [hN]; omega⟩, rfl⟩
  obtain ⟨-, -, -, -, -, -, -, -, -, e0, e1⟩ := idx t
  refine ⟨t, flush1_5 t, ?_⟩
  rw [mem_blk]
  intro a
  match a with
  | ⟨0, _⟩ =>
    show win1_5.index t 0 * 5000 ≤ (i 0).val ∧ (i 0).val < win1_5.index t 0 * 5000 + 5000
    rw [e0, ht]; omega
  | ⟨1, _⟩ =>
    show win1_5.index t 1 * 128 ≤ (i 1).val ∧ (i 1).val < win1_5.index t 1 * 128 + 128
    rw [e1]; omega

/-- After the last point the result array holds the whole-array stage. -/
theorem final (c : Dev nD) : (dat1 V c).arrAt 5 cfg1.N = G V c :=
  (dat1 V c).arrAt_eq_of_cover 5 (G V c) (fun t _ => flushed V c t) cover

end Cert.KernelIdeal.Region1

end
-- ==== Proof.Region2.lean ====
/-
  The third pallas_call's result array as one function of the arrays the region finds.

  The output layer has 64 columns and no rectifier. Point t of the 20 grid points fetches rows
  5000·t … 5000·t + 4999 of the aggregated array (window 0) and of the second layer's output (window 1), the two
  [128, 64] weight matrices and the 64-entry bias row whole (windows 2, 4, 3), and writes back the same rows of the
  [100000, 64] result (window 5). The body is the dense stage of width 64 on the tile (`tileLin …` of
  Proof/LibSageDense.lean). Block t of the whole-array stage `Cert.Sage.dense64` is what point t writes (`flushed`),
  the blocks tile the rows (`cover`), so the result array ends holding the whole-array stage (`final`), at an
  arbitrary region-entry contents `V`.
-/
import proofs.«176118_j13709535609075_1_alg».proof.Proof.Gen.KernelIdeal.Frame
import proofs.«176118_j13709535609075_1_alg».proof.Proof.Layers
import Idealize.ShloMosaic.Lib.Pipeline.Value
import Idealize.ShloMosaic.Lib.ValueIdx

set_option maxRecDepth 16384

noncomputable section

namespace Cert.KernelIdeal.Region2

open Cert.KernelIdeal Cert.KernelIdeal.Gen
open Idealize.ShloMosaic Idealize.ShloMosaic.TcCoe Idealize.ShloMosaic.ValueIdx Idealize.SL.Sem
open Idealize.ShloMosaic.Pipeline (Dat)

variable [hR : Cert.ReferenceIdeal.Facts]
variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The printed index maps over the grid: the two row-tiled inputs and the output are at block (t, 0), the weights
    and the bias at block 0. -/
theorem idx : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 1) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Row x₀ of the aggregated array's block at point t is row 5000·t + x₀ of the array. -/
theorem blkA (c : Dev nD) (t : Fin cfg2.N) (x : S5000x128.Idx) (i : S100000x128.Idx)
    (h0 : (i 0).val = 5000 * t.val + (x 0).val) (h1 : (i 1).val = (x 1).val) :
    (iblk2 V c 0 t : Vec Ideal S5000x128 .f32) x = (V c main_v62 : S100000x128.Idx → Elt Ideal .f32) i := by
  obtain ⟨e0, e1, -⟩ := idx t
  unfold iblk2
  rw [View.read_apply]
  show V c main_v62 _ = V c main_v62 _
  congr 1
  funext a
  apply Fin.ext
  match a with
  | ⟨0, _⟩ => show win2_0.index t 0 * 5000 + 1 * (x 0).val = (i 0).val; rw [e0, h0]; omega
  | ⟨1, _⟩ => show win2_0.index t 1 * 128 + 1 * (x 1).val = (i 1).val; rw [e1, h1]; omega

/-- Row x₀ of the block at point t of the previous layer's output is row 5000·t + x₀ of that array. -/
theorem blkX (c : Dev nD) (t : Fin cfg2.N) (x : S5000x128.Idx) (i : S100000x128.Idx)
    (h0 : (i 0).val = 5000 * t.val + (x 0).val) (h1 : (i 1).val = (x 1).val) :
    (iblk2 V c 1 t : Vec Ideal S5000x128 .f32) x = (V c main_v43 : S100000x128.Idx → Elt Ideal .f32) i := by
  obtain ⟨-, -, e0, e1, -⟩ := idx t
  unfold iblk2
  rw [View.read_apply]
  show V c main_v43 _ = V c main_v43 _
  congr 1
  funext a
  apply Fin.ext
  match a with
  | ⟨0, _⟩ => show win2_1.index t 0 * 5000 + 1 * (x 0).val = (i 0).val; rw [e0, h0]; omega
  | ⟨1, _⟩ => show win2_1.index t 1 * 128 + 1 * (x 1).val = (i 1).val; rw [e1, h1]; omega

/-- The left weight matrix's block is the matrix. -/
theorem blkWl (c : Dev nD) (t : Fin cfg2.N) (x : S128x64.Idx) :
    (iblk2 V c 2 t : Vec Ideal S128x64 .f32) x = (V c main_arg8 : S128x64.Idx → Elt Ideal .f32) x := by
  obtain ⟨-, -, -, -, e0, e1, -⟩ := idx t
  unfold iblk2
  rw [View.read_apply]
  show V c main_arg8 _ = V c main_arg8 _
  congr 1
  funext a
  apply Fin.ext
  match a with
  | ⟨0, _⟩ => show win2_2.index t 0 * 128 + 1 * (x 0).val = (x 0).val; rw [e0]; omega
  | ⟨1, _⟩ => show win2_2.index t 1 * 64 + 1 * (x 1).val = (x 1).val; rw [e1]; omega

/-- The bias row's block is the row. -/
theorem blkb (c : Dev nD) (t : Fin cfg2.N) (x : S64.Idx) :
    (iblk2 V c 3 t : Vec Ideal S64 .f32) x = (V c main_arg9 : S64.Idx → Elt Ideal .f32) x := by
  obtain ⟨-, -, -, -, -, -, e0, -⟩ := idx t
  unfold iblk2
  rw [View.read_apply]
  show V c main_arg9 _ = V c main_arg9 _
  congr 1
  funext a
  apply Fin.ext
  match a with
  | ⟨0, _⟩ => show win2_3.index t 0 * 64 + 1 * (x 0).val = (x 0).val; rw [e0]; omega

/-- The right weight matrix's block is the matrix. -/
theorem blkWr (c : Dev nD) (t : Fin cfg2.N) (x : S128x64.Idx) :
    (iblk2 V c 4 t : Vec Ideal S128x64 .f32) x = (V c main_arg10 : S128x64.Idx → Elt Ideal .f32) x := by
  obtain ⟨-, -, -, -, -, -, -, e0, e1, -⟩ := idx t
  unfold iblk2
  rw [View.read_apply]
  show V c main_arg10 _ = V c main_arg10 _
  congr 1
  funext a
  apply Fin.ext
  match a with
  | ⟨0, _⟩ => show win2_4.index t 0 * 128 + 1 * (x 0).val = (x 0).val; rw [e0]; omega
  | ⟨1, _⟩ => show win2_4.index t 1 * 64 + 1 * (x 1).val = (x 1).val; rw [e1]; omega

/-- What the result array ends holding: the whole-array dense stage of width 64, of the aggregated array,
    the previous layer's output, the two weight matrices and the bias as the region finds them. -/
abbrev G (c : Dev nD) : FVec Ideal S100000x64 .f32 :=
  Cert.Sage.dense64 (V c main_v62) (V c main_v43) (V c main_arg8) (V c main_arg9) (V c main_arg10)

/-- The body's payload on point t's blocks, at row j₀ of the tile, is the whole-array stage at row 5000·t + j₀. -/
theorem pay_at (c : Dev nD) (t : Fin cfg2.N) (j : S5000x64.Idx) (i : S100000x64.Idx)
    (h0 : (i 0).val = 5000 * t.val + (j 0).val) (h1 : (i 1).val = (j 1).val) :
    k2_pay1 (iblk2 V c 0 t) (iblk2 V c 1 t) (iblk2 V c 2 t) (iblk2 V c 4 t) (iblk2 V c 3 t) j = G V c i := by
  obtain ⟨p, q, rfl⟩ : ∃ (p : Fin 5000) (q : Fin 64), j = ix2 p q := ⟨j 0, j 1, eq_ix2 j⟩
  obtain ⟨r, q', rfl⟩ : ∃ (r : Fin 100000) (q' : Fin 64), i = ix2 r q' := ⟨i 0, i 1, eq_ix2 i⟩
  have hq : q' = q := Fin.ext h1
  subst hq
  have hr : r.val = 5000 * t.val + p.val := h0
  unfold k2_pay1
  show Cert.SageDense.tileLin dot_S5000x128_S128x64_S5000x64_1_0_0_1_n_n bitsLt_bf16_f32
      shapeCasts_S64_S1x64 broadcasts_S1x64_S5000x64
      (shapeCast S5000x128 (iblk2 V c 0 t) shapeCasts_S5000x128_S5000x128) (shapeCast S5000x128 (iblk2 V c 1 t) shapeCasts_S5000x128_S5000x128) (iblk2 V c 2 t)
      (iblk2 V c 3 t) (iblk2 V c 4 t) (ix2 p q') = _
  unfold G Cert.Sage.dense64
  refine Cert.SageDense.tile_eq _ rfl rfl rfl rfl rfl rfl _ rfl rfl rfl rfl rfl rfl _ _ _ _ _ _ _ _ _ _ _ _ _ _ _
    p r q' ?_ ?_ ?_ ?_ ?_
  · intro k
    exact (congrFun (shapeCast_self (s := S5000x128) _ shapeCasts_S5000x128_S5000x128) (ix2 p k)).trans
      (blkA V c t (ix2 p k) (ix2 r k) hr rfl)
  · intro k
    exact (congrFun (shapeCast_self (s := S5000x128) _ shapeCasts_S5000x128_S5000x128) (ix2 p k)).trans
      (blkX V c t (ix2 p k) (ix2 r k) hr rfl)
  · intro k; exact blkWl V c t (ix2 k q')
  · exact blkb V c t (ix1 q')
  · intro k; exact blkWr V c t (ix2 k q')

/-- What point t writes back is block t of `G`. -/
theorem flushed (c : Dev nD) (t : Fin cfg2.N) :
    (dat2 V c).flushed 5 t = ((cfg2.win 5).blk t).view.read (Elt Ideal) (G V c) := by
  show (cfg2.win 5).cut (grid2.coords t) ((dat2 V c).after 5 t) = _
  rw [after2_5]
  unfold out2_5
  rw [View.canon_unit_zero hz2]
  simp only [View.ld_unit_zero (S := S5000x128) hz2, View.ld_unit_zero (S := S128x64) hz2,
    View.ld_unit_zero (S := S64) hz1]
  obtain ⟨-, -, -, -, -, -, -, -, -, e0, e1⟩ := idx t
  funext j
  show k2_pay1 (iblk2 V c 0 t) (iblk2 V c 1 t) (iblk2 V c 2 t) (iblk2 V c 4 t) (iblk2 V c 3 t) j
    = G V c (((cfg2.win 5).blk t).view.emb j)
  refine pay_at V c t j _ ?_ ?_
  · show win2_5.index t 0 * 5000 + 1 * (j 0).val = 5000 * t.val + (j 0).val; rw [e0]; omega
  · show win2_5.index t 1 * 64 + 1 * (j 1).val = (j 1).val; rw [e1]; omega

/-- An index of the result array is in point t's block iff each coordinate is in the block's range on its axis. -/
theorem mem_blk (t : Fin cfg2.N) (i : S100000x64.Idx) :
    i ∈ ((cfg2.win 5).blk t).view.set ↔ ∀ a : Fin 2, win2_5.index t a * S5000x64.size a ≤ (i a).val
      ∧ (i a).val < win2_5.index t a * S5000x64.size a + S5000x64.size a := by
  show i ∈ ((View.whole main_v63).slice (win2_5.rect t)).set ↔ _
  rw [View.set_slice_whole, Rect.mem_set_unit]
  exact Iff.rfl

/-- Row i₀ of the result array lies in the block of point i₀ / 5000. -/
theorem cover (i : S100000x64.Idx) :
    ∃ t : Fin cfg2.N, (cfg2.win 5).flush t = true ∧ i ∈ ((cfg2.win 5).blk t).view.set := by
  have hi0 : (i 0).val < 100000 := (i 0).isLt
  have hi1 : (i 1).val < 64 := (i 1).isLt
  have hN : cfg2.N = 20 := N_2
  obtain ⟨t, ht⟩ : ∃ t : Fin cfg2.N, t.val = (i 0).val / 5000 := ⟨⟨(i 0).val / 5000, by rw [hN]; omega⟩, rfl⟩
  obtain ⟨-, -, -, -, -, -, -, -, -, e0, e1⟩ := idx t
  refine ⟨t, flush2_5 t, ?_⟩
  rw [mem_blk]
  intro a
  match a with
  | ⟨0, _⟩ =>
    show win2_5.index t 0 * 5000 ≤ (i 0).val ∧ (i 0).val < win2_5.index t 0 * 5000 + 5000
    rw [e0, ht]; omega
  | ⟨1, _⟩ =>
    show win2_5.index t 1 * 64 ≤ (i 1).val ∧ (i 1).val < win2_5.index t 1 * 64 + 64
    rw [e1]; omega

/-- After the last point the result array holds the whole-array stage. -/
theorem final (c : Dev nD) : (dat2 V c).arrAt 5 cfg2.N = G V c :=
  (dat2 V c).arrAt_eq_of_cover 5 (G V c) (fun t _ => flushed V c t) cover

end Cert.KernelIdeal.Region2

end
-- ==== Proof.Chain.lean ====
/-
  The kernel program's result buffer, followed from the launch memory to the return, is the network of the arguments.

  @main alternates three stretches of host operations with three pallas_calls. Each stretch computes, from the
  previous layer's output (the features  x  for the first), the mean over arriving edges (`Cert.Sage.mean`): the
  source and destination rows of the edge table are cut out once, in the first stretch, and read again by the later
  ones. Each pallas_call leaves in its result array the dense stage of the stretch's mean, the previous layer's
  output and the layer's weights (Proof/Region0.lean … Region2.lean), and touches no other buffer that is read later.
  So the contents at each boundary are, buffer by buffer: after stretch 0 the mean of  x ; after region 0 the first
  hidden layer `L0`; after stretch 1 the mean of `L0`; after region 1 the second hidden layer `L1`; after stretch 2
  the mean of `L1`; after region 2 the output layer, which is `Cert.Sage.net` of the eleven arguments (`result`).
  A buffer no operation of a stretch writes is read through the stretch unchanged, and a buffer that is not one of a
  region's six arrays is read through the region unchanged; the weights and the edge rows travel that way.
-/
import proofs.«176118_j13709535609075_1_alg».proof.Proof.Gen.KernelIdeal.Frame
import proofs.«176118_j13709535609075_1_alg».proof.Proof.Region0
import proofs.«176118_j13709535609075_1_alg».proof.Proof.Region1
import proofs.«176118_j13709535609075_1_alg».proof.Proof.Region2
import Idealize.ShloMosaic.Lib.StableHlo.Run

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo

variable [hR : Cert.ReferenceIdeal.Facts]
variable (m : (ℓ : Loc nD τ sig) → Buf (Elt Ideal) ℓ) (ρ : Dev nD → PrngReg)

/-- The source node of every edge, from the edge table the program was launched with. -/
abbrev src (c : Dev nD) : IVec S1600000 32 := Cert.Sage.srcRow (m ((c : Thread nD τ).loc main_arg1))
/-- The destination node of every edge. -/
abbrev dst (c : Dev nD) : IVec S1600000 32 := Cert.Sage.dstRow (m ((c : Thread nD τ).loc main_arg1))
/-- The first hidden layer of the launch arguments. -/
abbrev L0 (c : Dev nD) : FVec Ideal S100000x128 .f32 :=
  Cert.Sage.layer128 (m ((c : Thread nD τ).loc main_arg0)) (src m c) (dst m c) (m ((c : Thread nD τ).loc main_arg2)) (m ((c : Thread nD τ).loc main_arg3)) (m ((c : Thread nD τ).loc main_arg4))
/-- The second hidden layer. -/
abbrev L1 (c : Dev nD) : FVec Ideal S100000x128 .f32 :=
  Cert.Sage.layer128 (L0 m c) (src m c) (dst m c) (m ((c : Thread nD τ).loc main_arg5)) (m ((c : Thread nD τ).loc main_arg6)) (m ((c : Thread nD τ).loc main_arg7))

/-! ## Stretch 0: from the launch memory to region 0's entry -/

/-- The source row is cut out of the edge table. -/
theorem W1_src (c : Dev nD) : W1 m ρ c (Proc.devRef .tc main_v1) = src m c := by
  show StableHlo.after hostOps0 (W0 m ρ c) (Proc.devRef .tc main_v1) = _
  after_results_simp <;> rfl
/-- The destination row is cut out of the edge table. -/
theorem W1_dst (c : Dev nD) : W1 m ρ c (Proc.devRef .tc main_v3) = dst m c := by
  show StableHlo.after hostOps0 (W0 m ρ c) (Proc.devRef .tc main_v3) = _
  after_results_simp <;> rfl
/-- Region 0's aggregated operand is the mean of the features over arriving edges. -/
theorem V1_agg (c : Dev nD) : V1 m ρ c main_v22 = Cert.Sage.mean (m ((c : Thread nD τ).loc main_arg0)) (src m c) (dst m c) := by
  show StableHlo.after hostOps0 (W0 m ρ c) (Proc.devRef .tc main_v22) = _
  after_results_simp <;> rfl
theorem W1_arg0 (c : Dev nD) : W1 m ρ c (Proc.devRef .tc main_arg0) = m ((c : Thread nD τ).loc main_arg0) := by
  show StableHlo.after hostOps0 (W0 m ρ c) (Proc.devRef .tc main_arg0) = _
  after_results_simp <;> rfl
theorem W1_arg2 (c : Dev nD) : W1 m ρ c (Proc.devRef .tc main_arg2) = m ((c : Thread nD τ).loc main_arg2) := by
  show StableHlo.after hostOps0 (W0 m ρ c) (Proc.devRef .tc main_arg2) = _
  after_results_simp <;> rfl
theorem W1_arg3 (c : Dev nD) : W1 m ρ c (Proc.devRef .tc main_arg3) = m ((c : Thread nD τ).loc main_arg3) := by
  show StableHlo.after hostOps0 (W0 m ρ c) (Proc.devRef .tc main_arg3) = _
  after_results_simp <;> rfl
theorem W1_arg4 (c : Dev nD) : W1 m ρ c (Proc.devRef .tc main_arg4) = m ((c : Thread nD τ).loc main_arg4) := by
  show StableHlo.after hostOps0 (W0 m ρ c) (Proc.devRef .tc main_arg4) = _
  after_results_simp <;> rfl
theorem W1_arg5 (c : Dev nD) : W1 m ρ c (Proc.devRef .tc main_arg5) = m ((c : Thread nD τ).loc main_arg5) := by
  show StableHlo.after hostOps0 (W0 m ρ c) (Proc.devRef .tc main_arg5) = _
  after_results_simp <;> rfl
theorem W1_arg6 (c : Dev nD) : W1 m ρ c (Proc.devRef .tc main_arg6) = m ((c : Thread nD τ).loc main_arg6) := by
  show StableHlo.after hostOps0 (W0 m ρ c) (Proc.devRef .tc main_arg6) = _
  after_results_simp <;> rfl
theorem W1_arg7 (c : Dev nD) : W1 m ρ c (Proc.devRef .tc main_arg7) = m ((c : Thread nD τ).loc main_arg7) := by
  show StableHlo.after hostOps0 (W0 m ρ c) (Proc.devRef .tc main_arg7) = _
  after_results_simp <;> rfl
theorem W1_arg8 (c : Dev nD) : W1 m ρ c (Proc.devRef .tc main_arg8) = m ((c : Thread nD τ).loc main_arg8) := by
  show StableHlo.after hostOps0 (W0 m ρ c) (Proc.devRef .tc main_arg8) = _
  after_results_simp <;> rfl
theorem W1_arg9 (c : Dev nD) : W1 m ρ c (Proc.devRef .tc main_arg9) = m ((c : Thread nD τ).loc main_arg9) := by
  show StableHlo.after hostOps0 (W0 m ρ c) (Proc.devRef .tc main_arg9) = _
  after_results_simp <;> rfl
theorem W1_arg10 (c : Dev nD) : W1 m ρ c (Proc.devRef .tc main_arg10) = m ((c : Thread nD τ).loc main_arg10) := by
  show StableHlo.after hostOps0 (W0 m ρ c) (Proc.devRef .tc main_arg10) = _
  after_results_simp <;> rfl

/-! ## Region 0: its result array is the first hidden layer; the edge rows and the later weights pass through -/

theorem W2_out (c : Dev nD) : W2 m ρ c (Proc.devRef .tc main_v23) = L0 m c := by
  refine (W2_arr m ρ c 5).trans ((Region0.final (V1 m ρ) c).trans ?_)
  show Cert.Sage.dense128 (V1 m ρ c main_v22) (V1 m ρ c main_arg0) (V1 m ρ c main_arg2) (V1 m ρ c main_arg3)
      (V1 m ρ c main_arg4)
    = Cert.Sage.dense128 (Cert.Sage.mean (m ((c : Thread nD τ).loc main_arg0)) (src m c) (dst m c)) (m ((c : Thread nD τ).loc main_arg0))
      (m ((c : Thread nD τ).loc main_arg2)) (m ((c : Thread nD τ).loc main_arg3)) (m ((c : Thread nD τ).loc main_arg4))
  rw [V1_agg m ρ c, show V1 m ρ c main_arg0 = _ from W1_arg0 m ρ c, show V1 m ρ c main_arg2 = _ from W1_arg2 m ρ c,
    show V1 m ρ c main_arg3 = _ from W1_arg3 m ρ c, show V1 m ρ c main_arg4 = _ from W1_arg4 m ρ c]
theorem W2_src (c : Dev nD) : W2 m ρ c (Proc.devRef .tc main_v1) = src m c :=
  (W2_of_ne m ρ c main_v1 (by decide)).trans (W1_src m ρ c)
theorem W2_dst (c : Dev nD) : W2 m ρ c (Proc.devRef .tc main_v3) = dst m c :=
  (W2_of_ne m ρ c main_v3 (by decide)).trans (W1_dst m ρ c)
theorem W2_arg5 (c : Dev nD) : W2 m ρ c (Proc.devRef .tc main_arg5) = m ((c : Thread nD τ).loc main_arg5) :=
  (W2_of_ne m ρ c main_arg5 (by decide)).trans (W1_arg5 m ρ c)
theorem W2_arg6 (c : Dev nD) : W2 m ρ c (Proc.devRef .tc main_arg6) = m ((c : Thread nD τ).loc main_arg6) :=
  (W2_of_ne m ρ c main_arg6 (by decide)).trans (W1_arg6 m ρ c)
theorem W2_arg7 (c : Dev nD) : W2 m ρ c (Proc.devRef .tc main_arg7) = m ((c : Thread nD τ).loc main_arg7) :=
  (W2_of_ne m ρ c main_arg7 (by decide)).trans (W1_arg7 m ρ c)
theorem W2_arg8 (c : Dev nD) : W2 m ρ c (Proc.devRef .tc main_arg8) = m ((c : Thread nD τ).loc main_arg8) :=
  (W2_of_ne m ρ c main_arg8 (by decide)).trans (W1_arg8 m ρ c)
theorem W2_arg9 (c : Dev nD) : W2 m ρ c (Proc.devRef .tc main_arg9) = m ((c : Thread nD τ).loc main_arg9) :=
  (W2_of_ne m ρ c main_arg9 (by decide)).trans (W1_arg9 m ρ c)
theorem W2_arg10 (c : Dev nD) : W2 m ρ c (Proc.devRef .tc main_arg10) = m ((c : Thread nD τ).loc main_arg10) :=
  (W2_of_ne m ρ c main_arg10 (by decide)).trans (W1_arg10 m ρ c)

/-! ## Stretch 1: region 1's entry -/

theorem W3_src (c : Dev nD) : W3 m ρ c (Proc.devRef .tc main_v1) = src m c := by
  show StableHlo.after hostOps1 (W2 m ρ c) (Proc.devRef .tc main_v1) = _
  after_results_simp
  exact W2_src m ρ c
theorem W3_dst (c : Dev nD) : W3 m ρ c (Proc.devRef .tc main_v3) = dst m c := by
  show StableHlo.after hostOps1 (W2 m ρ c) (Proc.devRef .tc main_v3) = _
  after_results_simp
  exact W2_dst m ρ c
theorem W3_x (c : Dev nD) : W3 m ρ c (Proc.devRef .tc main_v23) = L0 m c := by
  show StableHlo.after hostOps1 (W2 m ρ c) (Proc.devRef .tc main_v23) = _
  after_results_simp
  exact W2_out m ρ c
theorem W3_arg5 (c : Dev nD) : W3 m ρ c (Proc.devRef .tc main_arg5) = m ((c : Thread nD τ).loc main_arg5) := by
  show StableHlo.after hostOps1 (W2 m ρ c) (Proc.devRef .tc main_arg5) = _
  after_results_simp
  exact W2_arg5 m ρ c
theorem W3_arg6 (c : Dev nD) : W3 m ρ c (Proc.devRef .tc main_arg6) = m ((c : Thread nD τ).loc main_arg6) := by
  show StableHlo.after hostOps1 (W2 m ρ c) (Proc.devRef .tc main_arg6) = _
  after_results_simp
  exact W2_arg6 m ρ c
theorem W3_arg7 (c : Dev nD) : W3 m ρ c (Proc.devRef .tc main_arg7) = m ((c : Thread nD τ).loc main_arg7) := by
  show StableHlo.after hostOps1 (W2 m ρ c) (Proc.devRef .tc main_arg7) = _
  after_results_simp
  exact W2_arg7 m ρ c
theorem W3_arg8 (c : Dev nD) : W3 m ρ c (Proc.devRef .tc main_arg8) = m ((c : Thread nD τ).loc main_arg8) := by
  show StableHlo.after hostOps1 (W2 m ρ c) (Proc.devRef .tc main_arg8) = _
  after_results_simp
  exact W2_arg8 m ρ c
theorem W3_arg9 (c : Dev nD) : W3 m ρ c (Proc.devRef .tc main_arg9) = m ((c : Thread nD τ).loc main_arg9) := by
  show StableHlo.after hostOps1 (W2 m ρ c) (Proc.devRef .tc main_arg9) = _
  after_results_simp
  exact W2_arg9 m ρ c
theorem W3_arg10 (c : Dev nD) : W3 m ρ c (Proc.devRef .tc main_arg10) = m ((c : Thread nD τ).loc main_arg10) := by
  show StableHlo.after hostOps1 (W2 m ρ c) (Proc.devRef .tc main_arg10) = _
  after_results_simp
  exact W2_arg10 m ρ c
/-- Region 1's aggregated operand is the mean of the first hidden layer over arriving edges. -/
theorem V3_agg (c : Dev nD) : V3 m ρ c main_v42 = Cert.Sage.mean (L0 m c) (src m c) (dst m c) := by
  show StableHlo.after hostOps1 (W2 m ρ c) (Proc.devRef .tc main_v42) = _
  after_results_simp
  rw [W2_out m ρ c, W2_src m ρ c, W2_dst m ρ c] <;> rfl

/-! ## Region 1: its result array is the second hidden layer -/

theorem W4_out (c : Dev nD) : W4 m ρ c (Proc.devRef .tc main_v43) = L1 m c := by
  refine (W4_arr m ρ c 5).trans ((Region1.final (V3 m ρ) c).trans ?_)
  show Cert.Sage.dense128 (V3 m ρ c main_v42) (V3 m ρ c main_v23) (V3 m ρ c main_arg5) (V3 m ρ c main_arg6)
      (V3 m ρ c main_arg7)
    = Cert.Sage.dense128 (Cert.Sage.mean (L0 m c) (src m c) (dst m c)) (L0 m c)
      (m ((c : Thread nD τ).loc main_arg5)) (m ((c : Thread nD τ).loc main_arg6)) (m ((c : Thread nD τ).loc main_arg7))
  rw [V3_agg m ρ c, show V3 m ρ c main_v23 = _ from W3_x m ρ c, show V3 m ρ c main_arg5 = _ from W3_arg5 m ρ c,
    show V3 m ρ c main_arg6 = _ from W3_arg6 m ρ c, show V3 m ρ c main_arg7 = _ from W3_arg7 m ρ c]
theorem W4_src (c : Dev nD) : W4 m ρ c (Proc.devRef .tc main_v1) = src m c :=
  (W4_of_ne m ρ c main_v1 (by decide)).trans (W3_src m ρ c)
theorem W4_dst (c : Dev nD) : W4 m ρ c (Proc.devRef .tc main_v3) = dst m c :=
  (W4_of_ne m ρ c main_v3 (by decide)).trans (W3_dst m ρ c)
theorem W4_arg8 (c : Dev nD) : W4 m ρ c (Proc.devRef .tc main_arg8) = m ((c : Thread nD τ).loc main_arg8) :=
  (W4_of_ne m ρ c main_arg8 (by decide)).trans (W3_arg8 m ρ c)
theorem W4_arg9 (c : Dev nD) : W4 m ρ c (Proc.devRef .tc main_arg9) = m ((c : Thread nD τ).loc main_arg9) :=
  (W4_of_ne m ρ c main_arg9 (by decide)).trans (W3_arg9 m ρ c)
theorem W4_arg10 (c : Dev nD) : W4 m ρ c (Proc.devRef .tc main_arg10) = m ((c : Thread nD τ).loc main_arg10) :=
  (W4_of_ne m ρ c main_arg10 (by decide)).trans (W3_arg10 m ρ c)

/-! ## Stretch 2: region 2's entry -/

theorem W5_x (c : Dev nD) : W5 m ρ c (Proc.devRef .tc main_v43) = L1 m c := by
  show StableHlo.after hostOps2 (W4 m ρ c) (Proc.devRef .tc main_v43) = _
  after_results_simp
  exact W4_out m ρ c
theorem W5_arg8 (c : Dev nD) : W5 m ρ c (Proc.devRef .tc main_arg8) = m ((c : Thread nD τ).loc main_arg8) := by
  show StableHlo.after hostOps2 (W4 m ρ c) (Proc.devRef .tc main_arg8) = _
  after_results_simp
  exact W4_arg8 m ρ c
theorem W5_arg9 (c : Dev nD) : W5 m ρ c (Proc.devRef .tc main_arg9) = m ((c : Thread nD τ).loc main_arg9) := by
  show StableHlo.after hostOps2 (W4 m ρ c) (Proc.devRef .tc main_arg9) = _
  after_results_simp
  exact W4_arg9 m ρ c
theorem W5_arg10 (c : Dev nD) : W5 m ρ c (Proc.devRef .tc main_arg10) = m ((c : Thread nD τ).loc main_arg10) := by
  show StableHlo.after hostOps2 (W4 m ρ c) (Proc.devRef .tc main_arg10) = _
  after_results_simp
  exact W4_arg10 m ρ c
/-- Region 2's aggregated operand is the mean of the second hidden layer over arriving edges. -/
theorem V5_agg (c : Dev nD) : V5 m ρ c main_v62 = Cert.Sage.mean (L1 m c) (src m c) (dst m c) := by
  show StableHlo.after hostOps2 (W4 m ρ c) (Proc.devRef .tc main_v62) = _
  after_results_simp
  rw [W4_out m ρ c, W4_src m ρ c, W4_dst m ρ c] <;> rfl

/-! ## Region 2: the result buffer holds the network of the arguments -/

theorem result (c : Dev nD) : W6 m ρ c (Proc.devRef .tc main_v63)
    = Cert.Sage.net (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7))
        (m ((c : Thread nD τ).loc main_arg8)) (m ((c : Thread nD τ).loc main_arg9)) (m ((c : Thread nD τ).loc main_arg10)) := by
  refine (W6_arr m ρ c 5).trans ((Region2.final (V5 m ρ) c).trans ?_)
  show Cert.Sage.dense64 (V5 m ρ c main_v62) (V5 m ρ c main_v43) (V5 m ρ c main_arg8) (V5 m ρ c main_arg9)
      (V5 m ρ c main_arg10)
    = Cert.Sage.dense64 (Cert.Sage.mean (L1 m c) (src m c) (dst m c)) (L1 m c)
      (m ((c : Thread nD τ).loc main_arg8)) (m ((c : Thread nD τ).loc main_arg9)) (m ((c : Thread nD τ).loc main_arg10))
  rw [V5_agg m ρ c, show V5 m ρ c main_v43 = _ from W5_x m ρ c, show V5 m ρ c main_arg8 = _ from W5_arg8 m ρ c,
    show V5 m ρ c main_arg9 = _ from W5_arg9 m ρ c, show V5 m ρ c main_arg10 = _ from W5_arg10 m ρ c]

end Cert.KernelIdeal.Chain

end
-- ==== Proof.RefValue.lean ====
/-
  The reference program's result is the network of its arguments.

  The reference runs the three layers on the host: each layer's mean over arriving edges, its two products, the bias
  row and (in the first two layers) the rectifier are single host operations, and its run ends with the result buffer
  at their composed term of the argument arrays. `Cert.Sage.net` (Proof/Layers.lean) is that same composition, cut
  into named pieces — the edge rows, the mean, the dense stage, a layer — so the two agree by unfolding the names.
-/
import proofs.«176118_j13709535609075_1_alg».proof.Proof.Gen.ReferenceIdeal.Run
import proofs.«176118_j13709535609075_1_alg».proof.Proof.Layers

set_option maxRecDepth 16384

noncomputable section

namespace Cert.ReferenceIdeal.RefValue

open Cert.ReferenceIdeal Cert.ReferenceIdeal.Gen Cert.ReferenceIdeal.Value
open Idealize.ShloMosaic Idealize.ShloMosaic.TcCoe Idealize.SL.Sem

/-- The composed term the reference's run states for its result is `Cert.Sage.net` of the argument arrays. -/
theorem res_eq (m : (ℓ : Loc nD τ sig) → Buf (Elt Ideal) ℓ) (c : Dev nD) :
    res_main_v80 (F := Ideal) m c
      = Cert.Sage.net (m ((c.tc : Thread nD τ).loc main_arg0))
        (m ((c.tc : Thread nD τ).loc main_arg1))
        (m ((c.tc : Thread nD τ).loc main_arg2))
        (m ((c.tc : Thread nD τ).loc main_arg3))
        (m ((c.tc : Thread nD τ).loc main_arg4))
        (m ((c.tc : Thread nD τ).loc main_arg5))
        (m ((c.tc : Thread nD τ).loc main_arg6))
        (m ((c.tc : Thread nD τ).loc main_arg7))
        (m ((c.tc : Thread nD τ).loc main_arg8))
        (m ((c.tc : Thread nD τ).loc main_arg9))
        (m ((c.tc : Thread nD τ).loc main_arg10)) := by
  unfold res_main_v80 Cert.Sage.net Cert.Sage.layer64 Cert.Sage.layer128 Cert.Sage.dense64 Cert.Sage.dense128
    Cert.Sage.mean Cert.Sage.srcRow Cert.Sage.dstRow Cert.SageDense.hostLin Cert.SageDense.hostRelu
  rfl

end Cert.ReferenceIdeal.RefValue

end
-- ==== Proof.lean ====
/-
  Three layers of mean-aggregation graph convolution over 100000 nodes and 1600000 edges: the kernel program against
  its host reference, over the extended reals.

  Both programs compute each layer's mean over arriving edges with the same host operations (gather at the source
  ids, scatter-add at the destination ids, division by max(count, 1)). They differ in the dense stage that follows.
  The reference computes it on the host as (A·Wl + b) + X·Wr, with the rectifier after the first two layers. The
  kernel program computes it in a pallas_call over 20 tiles of 5000 rows, as (A·Wl + X·Wr) + b after narrowing the
  operands to bf16, which changes nothing on the extended reals. The two orders of adding the three terms agree
  because addition of extended reals is commutative and associative (Proof/LibSageDense.lean), so no input needs to be
  finite for the value claim; a tile computes exactly its rows of the whole-array stage, and the twenty tiles cover
  the rows (Proof/Region0.lean, Region1.lean, Region2.lean). Followed through @main's boundaries, the kernel program's
  result buffer is `Cert.Sage.net` of the arguments (Proof/Chain.lean over the run of Proof/KernelRun.lean), and the
  reference's result is the same term by unfolding (Proof/RefValue.lean).

  The three frames are the generated ones (the reference's is its generated run with the result dropped); the ideal
  pass rewrote nothing, so `preserves` asks nothing.
-/
import proofs.«176118_j13709535609075_1_alg».proof.Defs
import proofs.«176118_j13709535609075_1_alg».proof.Proof.Gen.Kernel
import proofs.«176118_j13709535609075_1_alg».proof.Proof.Gen.Kernel.Skeleton
import proofs.«176118_j13709535609075_1_alg».proof.Proof.Gen.Kernel.Launch
import proofs.«176118_j13709535609075_1_alg».proof.Proof.Gen.Kernel.Points
import proofs.«176118_j13709535609075_1_alg».proof.Proof.Gen.Kernel.Frame
import proofs.«176118_j13709535609075_1_alg».proof.Proof.Gen.KernelIdeal
import proofs.«176118_j13709535609075_1_alg».proof.Proof.Gen.KernelIdeal.Skeleton
import proofs.«176118_j13709535609075_1_alg».proof.Proof.Gen.KernelIdeal.Launch
import proofs.«176118_j13709535609075_1_alg».proof.Proof.Gen.KernelIdeal.Points
import proofs.«176118_j13709535609075_1_alg».proof.Proof.Gen.KernelIdeal.Frame
import proofs.«176118_j13709535609075_1_alg».proof.Proof.Gen.ReferenceIdeal
import proofs.«176118_j13709535609075_1_alg».proof.Proof.Gen.ReferenceIdeal.Run
import proofs.«176118_j13709535609075_1_alg».proof.Proof.Gen.Pre_finite_inputs
import proofs.«176118_j13709535609075_1_alg».proof.Proof.KernelRun
import proofs.«176118_j13709535609075_1_alg».proof.Proof.Chain
import proofs.«176118_j13709535609075_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with their result buffer at the network of the (agreeing) arguments. -/
theorem algebraic : Cert.algebraic_KernelIdeal_ReferenceIdeal := by
  intro m ρ m' ρ' _ hagree
  refine ⟨fun c => Cert.Sage.net
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10)), ?_, ?_⟩
  · exact (θ_run Cert.KernelIdeal.defs _ _).mono
      (fun _ h c => ⟨(h c).1.trans (Cert.KernelIdeal.Chain.result m ρ c), (h c).2⟩)
      (Cert.KernelIdeal.ValueRun.run (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9, h10⟩ := hagree c
    rw [Cert.ReferenceIdeal.RefValue.res_eq m' c, h0, h1, h2, h3, h4, h5, h6, h7, h8, h9, h10]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
